-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S640000 32) (main_arg2 : IVec S640000 32) (main_v33 : IVec S_ 1) : IVec S_ 1 :=
  let main_c_12 : IVec S_ 32 := constantI S_ 32 0#32
  let main_v34 : IVec S640000 32 := broadcastInDim S640000 ![] bcast_S_S640000 main_c_12
  let main_v35 : IVec S640000 1 := cmpi .sge main_arg1 main_v34
  let main_c_13 : IVec S_ 1 := constantI S_ 1 1#1
  let main_v36 : IVec S_ 1 := (fun x v => Host.reduce IntOp.andi x v reducesTo_S640000_S_d0 h_S_) main_v35 main_c_13
  let main_v37 : IVec S_ 1 := andi main_v33 main_v36
  let main_c_14 : IVec S_ 32 := constantI S_ 32 10000#32
  let main_v38 : IVec S640000 32 := broadcastInDim S640000 ![] bcast_S_S640000 main_c_14
  let main_v39 : IVec S640000 1 := cmpi .slt main_arg1 main_v38
  let main_c_15 : IVec S_ 1 := constantI S_ 1 1#1
  let main_v40 : IVec S_ 1 := (fun x v => Host.reduce IntOp.andi x v reducesTo_S640000_S_d0 h_S_) main_v39 main_c_15
  let main_v41 : IVec S_ 1 := andi main_v37 main_v40
  let main_c_16 : IVec S_ 32 := constantI S_ 32 0#32
  let main_v42 : IVec S640000 32 := broadcastInDim S640000 ![] bcast_S_S640000 main_c_16
  let main_v43 : IVec S640000 1 := cmpi .sge main_arg2 main_v42
  let main_c_17 : IVec S_ 1 := constantI S_ 1 1#1
  let main_v44 : IVec S_ 1 := (fun x v => Host.reduce IntOp.andi x v reducesTo_S640000_S_d0 h_S_) main_v43 main_c_17
  let main_v45 : IVec S_ 1 := andi main_v41 main_v44
  main_v45

def fn_part1 {F : FTy → Type} [FloatOps F] (main_arg1 : IVec S640000 32) (main_arg2 : IVec S640000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_v33

def fn {F : FTy → Type} [FloatOps F] (main_arg0 : FVec F S10000x128 .f32) (main_arg1 : IVec S640000 32) (main_arg2 : IVec S640000 32) (main_arg3 : FVec F S256x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S10000x128 : Shape := ⟨2, ![10000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S_ : Shape := ⟨0, ![]⟩
abbrev S10112x128 : Shape := ⟨2, ![10112, 128]⟩
abbrev S2x320000x1 : Shape := ⟨3, ![2, 320000, 1]⟩
abbrev S2x10112x128 : Shape := ⟨3, ![2, 10112, 128]⟩
abbrev S1x1280x1 : Shape := ⟨3, ![1, 1280, 1]⟩
abbrev S1x10112x128 : Shape := ⟨3, ![1, 10112, 128]⟩
abbrev S1x10112 : Shape := ⟨2, ![1, 10112]⟩
abbrev S1x256x1 : Shape := ⟨3, ![1, 256, 1]⟩
abbrev S256x1 : Shape := ⟨2, ![256, 1]⟩
abbrev S256x10112 : Shape := ⟨2, ![256, 10112]⟩
abbrev S1x128 : Shape := ⟨2, ![1, 128]⟩
abbrev S2x1264x128 : Shape := ⟨3, ![2, 1264, 128]⟩
abbrev S1264x128 : Shape := ⟨2, ![1264, 128]⟩
abbrev S1x1264x128 : Shape := ⟨3, ![1, 1264, 128]⟩
abbrev S1264x256 : Shape := ⟨2, ![1264, 256]⟩

abbrev nBuf : Space → Nat
  | .hbm => 37
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S_, .f32⟩
  | .hbm, ⟨11, _⟩ => ⟨S10112x128, .f32⟩
  | .hbm, ⟨12, _⟩ => ⟨S10112x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S2x320000x1, .i32⟩
  | .hbm, ⟨30, _⟩ => ⟨S2x320000x1, .i32⟩
  | .hbm, ⟨31, _⟩ => ⟨S2x10112x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S10112x128, .f32⟩
  | .hbm, ⟨36, _⟩ => ⟨S10000x128, .f32⟩
  | .local _ .vmem, ⟨0, _⟩ => ⟨S1x1280x1, .i32⟩
  | .local _ .vmem, ⟨1, _⟩ => ⟨S1x1280x1, .i32⟩
  | .local _ .vmem, ⟨2, _⟩ => ⟨S1x1280x1, .i32⟩
  | .local _ .vmem, ⟨3, _⟩ => ⟨S1x1280x1, .i32⟩
  | .local _ .vmem, ⟨4, _⟩ => ⟨S10112x128, .bf16⟩
  | .local _ .vmem, ⟨5, _⟩ => ⟨S1x10112x128, .f32⟩
  | .local _ .vmem, ⟨6, _⟩ => ⟨S1x10112x128, .f32⟩
  | .local _ .vmem, ⟨7, _⟩ => ⟨S2x1264x128, .f32⟩
  | .local _ .vmem, ⟨8, _⟩ => ⟨S2x1264x128, .f32⟩
  | .local _ .vmem, ⟨9, _⟩ => ⟨S1264x128, .f32⟩
  | .local _ .vmem, ⟨10, _⟩ => ⟨S1264x128, .f32⟩
  | .local _ .vmem, ⟨11, _⟩ => ⟨S256x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1264x128, .f32⟩
  | .local _ .vmem, ⟨18, _⟩ => ⟨S1264x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v2 : Ref sig .tc := ⟨.hbm, 20, rfl⟩
abbrev main_c_2 : Ref sig .tc := ⟨.hbm, 21, rfl⟩
abbrev main_c_3 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨2, ![2, 250], ![false, false]⟩

def k0_mult1 : BitVec 32 :=
  let c0_i32_1 : BitVec 32 := 0#32
  let c256_i32 : BitVec 32 := 256#32
  let v4 : BitVec 32 := Scalar.muli c0_i32_1 c256_i32
  v4
def k0_off1 (c0_i32_1 : BitVec 32) : Fin 3 → Nat :=
  let c0 : Index := 0#32
  let c256_i32 : BitVec 32 := 256#32
  let v4 : BitVec 32 := Scalar.muli c0_i32_1 c256_i32
  let v5 : BitVec 32 := v4
  let v6 : Index := Scalar.indexCast v5
  let c0_2 : Index := 0#32
  ![0, v6.toNat, 0]
def k0_mult2 : BitVec 32 :=
  let c1_i32 : BitVec 32 := 1#32
  let c256_i32_14 : BitVec 32 := 256#32
  let v35 : BitVec 32 := Scalar.muli c1_i32 c256_i32_14
  v35
def k0_mult3 : BitVec 32 :=
  let c2_i32 : BitVec 32 := 2#32
  let c256_i32_29 : BitVec 32 := 256#32
  let v66 : BitVec 32 := Scalar.muli c2_i32 c256_i32_29
  v66
def k0_mult4 : BitVec 32 :=
  let c3_i32 : BitVec 32 := 3#32
  let c256_i32_44 : BitVec 32 := 256#32
  let v97 : BitVec 32 := Scalar.muli c3_i32 c256_i32_44
  v97
def k0_mult5 : BitVec 32 :=
  let c4_i32 : BitVec 32 := 4#32
  let c256_i32_59 : BitVec 32 := 256#32
  let v128 : BitVec 32 := Scalar.muli c4_i32 c256_i32_59
  v128
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1280x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10112x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x1264x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1264x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1264x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  pads_S10000x128_S10112x128_01120_000 : S10000x128.Pads (![0, 0] : Fin 2 → Nat) ![112, 0] ![0, 0] S10112x128
  h_S_ : 0 < S_.numel
  bitsLt_bf16_f32 : FTy.bits .bf16 < FTy.bits .f32
  bcast_S_S640000 : S_.BroadcastsInDim S640000 (![] : Fin 0 → Fin S640000.rank)
  shapeCasts_S640000_S2x320000x1 : S640000.ShapeCasts S2x320000x1
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  iota_S1x10112_d1_w32 : S1x10112.Iotas .tc 32 [1]
  h_S1x256x1 : 0 < S1x256x1.numel
  shapeCasts_S1x256x1_S256x1 : S1x256x1.ShapeCasts S256x1
  broadcasts_S1x10112_S256x10112 : S1x10112.Broadcasts S256x10112
  broadcasts_S256x1_S256x10112 : S256x1.Broadcasts S256x10112
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  shapeCasts_S128_S1x128 : S128.ShapeCasts S1x128
  inb_S2x1264x128_S1x1264x128_0_0_0 : ∀ a, (![0, 0, 0] : Fin 3 → Nat) a + S1x1264x128.size a ≤ S2x1264x128.size a
  h_S1x1264x128 : 0 < S1x1264x128.numel
  shapeCasts_S1x1264x128_S1264x128 : S1x1264x128.ShapeCasts S1264x128
  inb_S2x1264x128_S1x1264x128_1_0_0 : ∀ a, (![1, 0, 0] : Fin 3 → Nat) a + S1x1264x128.size a ≤ S2x1264x128.size a
  inb_S1264x128_S1264x128_0_0 : ∀ a, (![0, 0] : Fin 2 → Nat) a + S1264x128.size a ≤ S1264x128.size a
  h_S1264x128 : 0 < S1264x128.numel
  shapeCasts_S1264x128_S1264x128 : S1264x128.ShapeCasts S1264x128
  concatenates_S1264x128_S1264x128_S1264x256_d1 : Shape.Concatenates [S1264x128, S1264x128] S1264x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1264x128 : S1x128.Broadcasts S1264x128
  inb_S128x128_S128x128_0_0 : ∀ a, (![0, 0] : Fin 2 → Nat) a + S128x128.size a ≤ S128x128.size a
  h_S128x128 : 0 < S128x128.numel
  slices_S10112x128_S10000x128_0_0 : S10112x128.Slices ![0, 0] S10000x128
  dot_S256x10112_S10112x128_S256x128_1_0_0_1_n_n_wf : DotDims.WF S256x10112 S10112x128 S256x128 [1] [0] [0] [1] [] []
  dot_S256x10112_S256x128_S10112x128_0_0_1_1_n_n_wf : DotDims.WF S256x10112 S256x128 S10112x128 [0] [0] [1] [1] [] []
  dot_S1264x256_S256x128_S1264x128_1_0_0_1_n_n_wf : DotDims.WF S1264x256 S256x128 S1264x128 [1] [0] [0] [1] [] []
  dot_S1264x128_S128x128_S1264x128_1_0_0_1_n_n_wf : DotDims.WF S1264x128 S128x128 S1264x128 [1] [0] [0] [1] [] []
  hrank0 : 0 < grid0.rank
  k0_mult1_dvd : 256 ∣ k0_mult1.toNat
  k0_off1_inb : ∀ (r : Fin 5), ∀ a, (k0_off1 (BitVec.ofNat 32 r.val)) a + S1x256x1.size a ≤ S1x1280x1.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280x1.size a ≤ S2x320000x1.size a
  hwx0_0 : ∀ i : grid0.Coords, EltTy.bits .i32 = 32 ∨ (Rect.block (s := S2x320000x1) S1x1280x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x1.size a ≤ S2x320000x1.size a
  hwx0_1 : ∀ i : grid0.Coords, EltTy.bits .i32 = 32 ∨ (Rect.block (s := S2x320000x1) S1x1280x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10112x128.size a ≤ S10112x128.size a
  hwx0_2 : ∀ i : grid0.Coords, EltTy.bits .bf16 = 32 ∨ (Rect.block (s := S10112x128) S10112x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10112x128.size a ≤ S2x10112x128.size a
  hwx0_3 : ∀ i : grid0.Coords, EltTy.bits .f32 = 32 ∨ (Rect.block (s := S2x10112x128) S1x10112x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1264x128.size a ≤ S2x10112x128.size a
  hwx1_0 : ∀ i : grid1.Coords, EltTy.bits .f32 = 32 ∨ (Rect.block (s := S2x10112x128) S2x1264x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1264x128.size a ≤ S10112x128.size a
  hwx1_1 : ∀ i : grid1.Coords, EltTy.bits .f32 = 32 ∨ (Rect.block (s := S10112x128) S1264x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1264x128.size a ≤ S10112x128.size a
  hwx1_8 : ∀ i : grid1.Coords, EltTy.bits .f32 = 32 ∨ (Rect.block (s := S10112x128) S1264x128.size (cc1_transform_8 i) (hinb1_8 i)).WholeWords (EltTy.packing .f32)

variable [Facts₀]

def dot_S256x10112_S10112x128_S256x128_1_0_0_1_n_n : DotDims S256x10112 S10112x128 S256x128 where
  lhsContracting := [1]
  rhsContracting := [0]
  lhsNonContracting := [0]
  rhsNonContracting := [1]
  lhsBatch := []
  rhsBatch := []
  wf := dot_S256x10112_S10112x128_S256x128_1_0_0_1_n_n_wf
def dot_S256x10112_S256x128_S10112x128_0_0_1_1_n_n : DotDims S256x10112 S256x128 S10112x128 where
  lhsContracting := [0]
  rhsContracting := [0]
  lhsNonContracting := [1]
  rhsNonContracting := [1]
  lhsBatch := []
  rhsBatch := []
  wf := dot_S256x10112_S256x128_S10112x128_0_0_1_1_n_n_wf
def dot_S1264x256_S256x128_S1264x128_1_0_0_1_n_n : DotDims S1264x256 S256x128 S1264x128 where
  lhsContracting := [1]
  rhsContracting := [0]
  lhsNonContracting := [0]
  rhsNonContracting := [1]
  lhsBatch := []
  rhsBatch := []
  wf := dot_S1264x256_S256x128_S1264x128_1_0_0_1_n_n_wf
def dot_S1264x128_S128x128_S1264x128_1_0_0_1_n_n : DotDims S1264x128 S128x128 S1264x128 where
  lhsContracting := [1]
  rhsContracting := [0]
  lhsNonContracting := [0]
  rhsNonContracting := [1]
  lhsBatch := []
  rhsBatch := []
  wf := dot_S1264x128_S128x128_S1264x128_1_0_0_1_n_n_wf

abbrev win0_0 : Pipeline.Window sig grid0 :=
  Pipeline.Window.ofSpec (Memref.whole main_v4) S1x1280x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1280x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10112x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x10112x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2x1264x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1264x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1264x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S10000x256 : Shape := ⟨2, ![10000, 256]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S10000x256, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.PreRanges.lean ====
/-
  What the precondition says of the two edge arrays.

  The precondition is a conjunction, folded from the left, of one all-reduction per clause; the last three
  clauses say that every source word is at least 0, that every source word is below 10000, and that every
  destination word is at least 0, each as a signed comparison against a broadcast constant reduced by
  "and" from 1.  If the whole predicate is 1 then each clause is 1, and an "and"-reduction that is 1 has
  every element 1; a signed comparison that is 1 is the comparison of the words' signed readings.
-/
import proofs.«419023_j39298950758677_3_alg».proof.Pre_finite_inputs
import proofs.«419023_j39298950758677_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Gnn.PreRanges

open Idealize.ShloMosaic Idealize.ShloMosaic.ValueIdx Cert.Pre_finite_inputs Cert.Pre_finite_inputs.Gen

/-- The rank-0 shape has one index. -/
instance : Subsingleton S_.Idx := ⟨fun a b => funext fun d => d.elim0⟩

/-- The three edge clauses, each at every edge, as comparisons of single words. -/
theorem clauses (a0 : FVec Ideal S10000x128 .f32) (a1 a2 : IVec S640000 32) (a3 : FVec Ideal S256x128 .f32)
    (a4 : FVec Ideal S128 .f32) (a5 : FVec Ideal S128x128 .f32) (a6 : FVec Ideal S128 .f32)
    (a7 : FVec Ideal S128x128 .f32) (a8 : FVec Ideal S128 .f32)
    (h : fn (F := Ideal) a0 a1 a2 a3 a4 a5 a6 a7 a8 = fun _ => 1#1) (p : Fin 640000) :
    IntOp.cmpi .sge (a1 (ix1 p)) 0#32 = 1#1 ∧ IntOp.cmpi .slt (a1 (ix1 p)) 10000#32 = 1#1 ∧
      IntOp.cmpi .sge (a2 (ix1 p)) 0#32 = 1#1 := by
  have h0 := congrFun h ix0
  dsimp only [fn, fn_part1, fn_part2] at h0
  change IntOp.andi (IntOp.andi (IntOp.andi _ _) _) _ = 1#1 at h0
  obtain ⟨h1, hd⟩ := IntOp.andi_eq_one.1 h0
  obtain ⟨h2, hlt⟩ := IntOp.andi_eq_one.1 h1
  obtain ⟨-, hge⟩ := IntOp.andi_eq_one.1 h2
  exact ⟨Host.reduce_andi_all _ _ _ _ _ hge (ix1 p), Host.reduce_andi_all _ _ _ _ _ hlt (ix1 p),
    Host.reduce_andi_all _ _ _ _ _ hd (ix1 p)⟩

/-- Every source word reads a node number. -/
theorem src_range (a0 : FVec Ideal S10000x128 .f32) (a1 a2 : IVec S640000 32) (a3 : FVec Ideal S256x128 .f32)
    (a4 : FVec Ideal S128 .f32) (a5 : FVec Ideal S128x128 .f32) (a6 : FVec Ideal S128 .f32)
    (a7 : FVec Ideal S128x128 .f32) (a8 : FVec Ideal S128 .f32)
    (h : fn (F := Ideal) a0 a1 a2 a3 a4 a5 a6 a7 a8 = fun _ => 1#1) (p : Fin 640000) :
    0 ≤ (a1 (ix1 p)).toInt ∧ (a1 (ix1 p)).toInt < 10000 := by
  obtain ⟨hge, hlt, -⟩ := clauses a0 a1 a2 a3 a4 a5 a6 a7 a8 h p
  have z : (0#32 : BitVec 32).toInt = 0 := by decide
  have t : (10000#32 : BitVec 32).toInt = 10000 := by decide
  exact ⟨z ▸ IntOp.cmpi_sge.1 hge, t ▸ IntOp.cmpi_slt.1 hlt⟩

/-- No destination word is negative. -/
theorem dst_nonneg (a0 : FVec Ideal S10000x128 .f32) (a1 a2 : IVec S640000 32) (a3 : FVec Ideal S256x128 .f32)
    (a4 : FVec Ideal S128 .f32) (a5 : FVec Ideal S128x128 .f32) (a6 : FVec Ideal S128 .f32)
    (a7 : FVec Ideal S128x128 .f32) (a8 : FVec Ideal S128 .f32)
    (h : fn (F := Ideal) a0 a1 a2 a3 a4 a5 a6 a7 a8 = fun _ => 1#1) (p : Fin 640000) :
    0 ≤ (a2 (ix1 p)).toInt := by
  obtain ⟨-, -, hd⟩ := clauses a0 a1 a2 a3 a4 a5 a6 a7 a8 h p
  have z : (0#32 : BitVec 32).toInt = 0 := by decide
  exact z ▸ IntOp.cmpi_sge.1 hd

end Cert.Gnn.PreRanges

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.Spec.lean ====
/-
  What the two programs compute, as functions of indices over the extended reals.

  A graph has 10000 nodes, each with a feature row of 128 numbers, and 640000 directed edges given by two
  arrays of 32-bit words: the source node and the destination node of each edge.  Every node collects the
  feature rows of the sources of the edges that end in it (the aggregate); the aggregate and the node's own
  row, side by side, go through three dense layers (256 to 128 to 128 to 128, the positive part between
  them).

  The aggregate is written twice here.  The direct form sums, over all edges whose destination word reads
  the node's number, the feature row of the edge's source.  The indicator form works on a feature table
  padded with zero rows to 10112 rows and on the edges in two halves: an edge's message is the sum over all
  table rows of the indicator "this row's number is the source word" times the row, and a node's partial
  aggregate is the sum over the half's edges of the indicator "the node's number is the destination word"
  times the message.
-/
import Idealize.ShloMosaic.PureOps.Ideal
import Idealize.ShloMosaic.Lib.ValueIdx
import proofs.«419023_j39298950758677_3_alg».proof.Proof.LibDenseRows

noncomputable section

open scoped BigOperators

namespace Cert.Gnn

open Idealize.ShloMosaic Idealize.ShloMosaic.ValueIdx DenseRows

/-- A length-n array of 32-bit words. -/
abbrev Words (n : Nat) : Type := IVec (⟨1, ![n]⟩ : Shape) 32

/-- A length-n array of extended reals. -/
abbrev Row (n : Nat) : Type := FVec Ideal (⟨1, ![n]⟩ : Shape) .f32

/-! ## The dense layers -/

/-- Two matrices of 128 columns side by side. -/
def cat {m : Nat} (A B : Mat m 128) : Mat m 256 :=
  fun i => if h : (i 1).val < 128 then A (ix2 (i 0) ⟨(i 1).val, h⟩)
    else B (ix2 (i 0) ⟨(i 1).val - 128, by have := (i 1).isLt; change (i 1).val < 256 at this; omega⟩)

/-- Three dense layers with bias rows, the positive part after the first two. -/
def mlp {m : Nat} (X : Mat m 256) (W1 : Mat 256 128) (r1 : Mat 1 128) (W2 : Mat 128 128) (r2 : Mat 1 128)
    (W3 : Mat 128 128) (r3 : Mat 1 128) : Mat m 128 :=
  addRow (mm (relu (addRow (mm (relu (addRow (mm X W1) r1)) W2) r2)) W3) r3

/-- The layers are row-local: a row of the result depends on that row of the input only. -/
theorem mlp_rows {m M : Nat} (X : Mat m 256) (A : Mat M 256) (W1 : Mat 256 128) (r1 : Mat 1 128) (W2 : Mat 128 128)
    (r2 : Mat 1 128) (W3 : Mat 128 128) (r3 : Mat 1 128) (p : Fin m) (P : Fin M)
    (h : ∀ c, X (ix2 p c) = A (ix2 P c)) (q : Fin 128) :
    mlp X W1 r1 W2 r2 W3 r3 (ix2 p q) = mlp A W1 r1 W2 r2 W3 r3 (ix2 P q) := by
  unfold mlp
  refine addRow_rows _ _ _ p P (fun c => ?_) q
  refine mm_rows _ _ _ p P (fun c => ?_) c
  refine relu_rows _ _ p P (fun c => ?_) c
  refine addRow_rows _ _ _ p P (fun c => ?_) c
  refine mm_rows _ _ _ p P (fun c => ?_) c
  refine relu_rows _ _ p P (fun c => ?_) c
  refine addRow_rows _ _ _ p P (fun c => ?_) c
  exact mm_rows _ _ _ p P h c

/-! ## The aggregate, direct form -/

/-- The table row a source word names (any word is sent to some row; a word below 10000 to its own). -/
def rowOf (w : BitVec 32) : Fin 10000 := ⟨w.toNat % 10000, Nat.mod_lt _ (by decide)⟩

/-- Node n's aggregate: the sum of the source rows of the edges whose destination word reads n. -/
def aggRef (nf : Mat 10000 128) (src dst : Words 640000) : Mat 10000 128 :=
  fun i => ∑ p : Fin 640000,
    if (dst (ix1 p)).toInt = (((i 0).val : Nat) : Int) then nf (ix2 (rowOf (src (ix1 p))) (i 1)) else 0

/-- The whole computation: the layers on the aggregate beside the features. -/
def G (nf : Mat 10000 128) (src dst : Words 640000) (W1 : Mat 256 128) (b1 : Row 128) (W2 : Mat 128 128) (b2 : Row 128)
    (W3 : Mat 128 128) (b3 : Row 128) : Mat 10000 128 :=
  mlp (cat (aggRef nf src dst) nf) W1 (asRow b1) W2 (asRow b2) W3 (asRow b3)

/-! ## The aggregate, indicator form -/

/-- The indicator that the 32-bit word of the number n is the word w. -/
def oh (w : BitVec 32) (n : Nat) : EReal := if BitVec.ofNat 32 n = w then 1 else 0

/-- One edge's message read off a table of 10112 rows: the sum of the rows weighted by the indicator of the
    source word. -/
def msg (X : FVec Ideal (⟨2, ![10112, 128]⟩ : Shape) .bf16) (s : BitVec 32) (k : Fin 128) : EReal :=
  ∑ n' : Fin 10112, oh s n'.val * X (ix2 n' k)

/-- The two partial aggregates over 10112 rows, one per half of the edges: row n of half h sums, over the
    half's edges, the indicator of the destination word at n times the edge's message. -/
def aggPad (S D : IVec (⟨3, ![2, 320000, 1]⟩ : Shape) 32) (X : FVec Ideal (⟨2, ![10112, 128]⟩ : Shape) .bf16) :
    FVec Ideal (⟨3, ![2, 10112, 128]⟩ : Shape) .f32 :=
  fun y => ∑ q : Fin 320000, oh (D (ix3 (y 0) q 0)) (y 1).val * msg X (S (ix3 (y 0) q 0)) (y 2)

/-- The sum of the two halves. -/
def sum2 (A : FVec Ideal (⟨3, ![2, 10112, 128]⟩ : Shape) .f32) : Mat 10112 128 :=
  fun i => A (ix3 0 (i 0) (i 1)) + A (ix3 1 (i 0) (i 1))

/-- The layers on the padded table: what the second stage leaves in its 10112-row result. -/
def mlpPad (A : FVec Ideal (⟨3, ![2, 10112, 128]⟩ : Shape) .f32) (Xp : Mat 10112 128) (W1 : Mat 256 128) (r1 : Mat 1 128)
    (W2 : Mat 128 128) (r2 : Mat 1 128) (W3 : Mat 128 128) (r3 : Mat 1 128) : Mat 10112 128 :=
  mlp (cat (sum2 A) Xp) W1 r1 W2 r2 W3 r3

end Cert.Gnn

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«419023_j39298950758677_3_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.RefValue.lean ====
/-
  The second program's result is the whole computation.

  Its run ends with the result buffer at the composed term of its host operations.  Read at an index: the
  wrap-around of a negative source word and the clamp of the gather leave a word that reads a node number as
  it is, so the gather's row p is the source's feature row; the accumulating scatter into zeros adds to row n
  the gathered rows of the edges whose destination word reads n (words that read no row are dropped); the
  concatenation, the three contractions, the bias rows and the two maxima with zero are the dense layers.
-/
import proofs.«419023_j39298950758677_3_alg».proof.Defs
import proofs.«419023_j39298950758677_3_alg».proof.Proof.Gen.ReferenceIdeal.Run
import proofs.«419023_j39298950758677_3_alg».proof.Proof.Gen.ReferenceIdeal.Read
import proofs.«419023_j39298950758677_3_alg».proof.Proof.Spec
import proofs.«419023_j39298950758677_3_alg».proof.Proof.LibIndexMaps
import proofs.«419023_j39298950758677_3_alg».proof.Proof.LibWordArith
import proofs.«419023_j39298950758677_3_alg».proof.Proof.LibDenseForms

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## The source words -/

/-- A word that reads a non-negative number is below 2³¹. -/
theorem word_small {a : BitVec 32} (h0 : 0 ≤ a.toInt) : a.toNat < 2 ^ 31 := by
  have h := BitVec.toInt_pos_iff.mp h0
  omega

/-- The column of start indices at (p, 0): the source word p itself, the wrap-around of a negative word not
    applying to a word that reads a non-negative number. -/
theorem srcCol_apply (x1 : IVec S640000 32) (p : Fin 640000) (h0 : 0 ≤ (x1 (ix1 p)).toInt) :
    Read.val_main_v5 (F := Ideal) x1 (ix2 p (0 : Fin 1)) = x1 (ix1 p) := by
  rw [Read.val_main_v5_apply]
  have e : Read.idx_main_v5 (ix2 p (0 : Fin 1)) = ix1 p := by
    funext a; match a with | ⟨0, _⟩ => rfl
  rw [e, Read.val_main_v4_apply, Read.val_main_v1_apply, Read.val_main_v0_apply, Read.val_main_c_apply,
    Read.val_main_v3_apply]
  exact Cert.Gcn.WordArith.select_slt_zero_small _ (word_small h0)

/-! ## The gathered rows -/

/-- Row p of the gather is the feature row the source word p names. -/
theorem gathered_apply (x0 : DenseRows.Mat 10000 128) (x1 : IVec S640000 32) (p : Fin 640000) (c : Fin 128)
    (h0 : 0 ≤ (x1 (ix1 p)).toInt) (h1 : (x1 (ix1 p)).toInt < 10000) :
    Read.val_main_v6 (F := Ideal) x0 x1 (ix2 p c) = x0 (ix2 (Cert.Gnn.rowOf (x1 (ix1 p))) c) := by
  have hs := word_small h0
  have hti := Cert.Gcn.WordArith.toInt_of_small hs
  have hk : (x1 (ix1 p)).toNat < 10000 := by omega
  have hrow : (⟨(x1 (ix1 p)).toNat, hk⟩ : Fin 10000) = Cert.Gnn.rowOf (x1 (ix1 p)) :=
    Fin.ext (Nat.mod_eq_of_lt hk).symm
  unfold Read.val_main_v6
  rw [Cert.Gcn.IndexMaps.gather2_ix_apply _ rfl rfl rfl rfl rfl x0 _ p c (x1 (ix1 p)).toNat hk
    (by rw [srcCol_apply x1 p h0]; exact hti), hrow]

/-! ## The aggregate -/

/-- The accumulating scatter of the gathered rows into zeros is the aggregate. -/
theorem agg_eq (x0 : DenseRows.Mat 10000 128) (x1 x2 : IVec S640000 32)
    (hsrc : ∀ p : Fin 640000, 0 ≤ (x1 (ix1 p)).toInt ∧ (x1 (ix1 p)).toInt < 10000) :
    Read.val_main_v9 (F := Ideal) x0 x1 x2 = Cert.Gnn.aggRef x0 x1 x2 := by
  funext i
  obtain ⟨n, k, rfl⟩ : ∃ (n : Fin 10000) (k : Fin 128), i = ix2 n k := ⟨i 0, i 1, eq_ix2 i⟩
  unfold Read.val_main_v9
  show Ideal.hostScatterAdd _ _ _ _ (ix2 n k) = _
  rw [Cert.Gcn.IndexMaps.hostScatterAdd2_apply _ rfl rfl rfl rfl, Read.val_main_v7_apply, Read.val_main_cst_apply]
  show Ideal.ofBits .f32 0x00000000#32 + _ = _
  rw [Ideal.ofBits_zero_f32, zero_add]
  show _ = ∑ p : Fin 640000,
    if (x2 (ix1 p)).toInt = ((n.val : Nat) : Int) then x0 (ix2 (Cert.Gnn.rowOf (x1 (ix1 p))) k) else 0
  refine Finset.sum_congr rfl fun p _ => ?_
  have e : Read.idx_main_v8 (ix2 p (0 : Fin 1)) = ix1 p := by
    funext a; match a with | ⟨0, _⟩ => rfl
  rw [Read.val_main_v8_apply, e, gathered_apply x0 x1 p k (hsrc p).1 (hsrc p).2]

/-! ## The concatenation -/

/-- Two matrices of 128 columns joined along the columns. -/
theorem cat_eq (A B : DenseRows.Mat 10000 128) (h : Shape.Concatenates [S10000x128, S10000x128] S10000x256 1) :
    concatenate S10000x256 1 [⟨S10000x128, A⟩, ⟨S10000x128, B⟩] h = Cert.Gnn.cat A B := by
  funext i
  obtain ⟨n, j, rfl⟩ : ∃ (n : Fin 10000) (j : Fin 256), i = ix2 n j := ⟨i 0, i 1, eq_ix2 i⟩
  by_cases hj : j.val < 128
  · have hc : Cert.Gnn.cat A B (ix2 n j) = A (ix2 n ⟨j.val, hj⟩) := dif_pos hj
    rw [hc]
    refine concatenate_pair_apply_left 1 A B h (ix2 n j) rfl (ix2 n ⟨j.val, hj⟩) fun b => ?_
    match b with
    | ⟨0, _⟩ => rfl
    | ⟨1, _⟩ => rfl
  · have hj' : j.val - 128 < 128 := by have := j.isLt; omega
    have hc : Cert.Gnn.cat A B (ix2 n j) = B (ix2 n ⟨j.val - 128, hj'⟩) := dif_neg hj
    rw [hc]
    refine concatenate_pair_apply_right 1 A B h (ix2 n j) rfl rfl (ix2 n ⟨j.val - 128, hj'⟩) (fun b hb => ?_) ?_
    · match b with
      | ⟨0, _⟩ => rfl
      | ⟨1, _⟩ => exact absurd rfl hb
    · show j.val - 128 + 128 = j.val
      omega

/-! ## The dense layers -/

theorem dot1_eq : dot_S10000x256_S256x128_S10000x128_1_0_0_1_n_n = DotDims.plain 10000 256 128 := rfl

theorem dot2_eq : dot_S10000x128_S128x128_S10000x128_1_0_0_1_n_n = DotDims.plain 10000 128 128 := rfl

/-- One dense layer as the host spells it: the contraction, and the bias as a row broadcast down the rows. -/
theorem layer1_eq (X : DenseRows.Mat 10000 256) (W : DenseRows.Mat 256 128) (b : Cert.Gnn.Row 128)
    (h1 : S128.BroadcastsInDim S1x128 ![1]) (h2 : S1x128.BroadcastsInDim S10000x128 ![0, 1]) :
    addf (Host.dotGeneral dot_S10000x256_S256x128_S10000x128_1_0_0_1_n_n none X W)
        (broadcastInDim S10000x128 ![0, 1] h2 (broadcastInDim S1x128 ![1] h1 b))
      = DenseRows.addRow (DenseRows.mm X W) (DenseRows.asRow b) := by
  rw [dot1_eq, DenseRows.dotGeneral_plain_eq_mm, DenseRows.broadcastInDim_asRow]
  exact DenseRows.bias_host_form _ _ h2

theorem layer2_eq (X : DenseRows.Mat 10000 128) (W : DenseRows.Mat 128 128) (b : Cert.Gnn.Row 128)
    (h1 : S128.BroadcastsInDim S1x128 ![1]) (h2 : S1x128.BroadcastsInDim S10000x128 ![0, 1]) :
    addf (Host.dotGeneral dot_S10000x128_S128x128_S10000x128_1_0_0_1_n_n none X W)
        (broadcastInDim S10000x128 ![0, 1] h2 (broadcastInDim S1x128 ![1] h1 b))
      = DenseRows.addRow (DenseRows.mm X W) (DenseRows.asRow b) := by
  rw [dot2_eq, DenseRows.dotGeneral_plain_eq_mm, DenseRows.broadcastInDim_asRow]
  exact DenseRows.bias_host_form _ _ h2

/-- The maximum with the broadcast zero constant is the positive part. -/
theorem relu_eq (Z : DenseRows.Mat 10000 128) (h0 : S_.BroadcastsInDim S10000x128 ![]) :
    maximumf Z (broadcastInDim S10000x128 ![] h0 (constant S_ .f32 0x00000000#32)) = DenseRows.relu Z :=
  DenseRows.relu_host_form Z h0

/-! ## The whole term -/

/-- The composed term of the host operations is the whole computation of the arguments. -/
theorem result_eq (x0 : DenseRows.Mat 10000 128) (x1 x2 : IVec S640000 32) (x3 : DenseRows.Mat 256 128)
    (x4 : Cert.Gnn.Row 128) (x5 : DenseRows.Mat 128 128) (x6 : Cert.Gnn.Row 128) (x7 : DenseRows.Mat 128 128)
    (x8 : Cert.Gnn.Row 128)
    (hsrc : ∀ p : Fin 640000, 0 ≤ (x1 (ix1 p)).toInt ∧ (x1 (ix1 p)).toInt < 10000) :
    Read.val_main_v24 (F := Ideal) x0 x1 x2 x3 x4 x5 x6 x7 x8 = Cert.Gnn.G x0 x1 x2 x3 x4 x5 x6 x7 x8 := by
  have e10 : Read.val_main_v10 (F := Ideal) x0 x1 x2 = Cert.Gnn.cat (Cert.Gnn.aggRef x0 x1 x2) x0 := by
    unfold Read.val_main_v10
    rw [agg_eq x0 x1 x2 hsrc]
    exact cat_eq _ _ _
  have e14 : Read.val_main_v14 (F := Ideal) x0 x1 x2 x3 x4
      = DenseRows.addRow (DenseRows.mm (Cert.Gnn.cat (Cert.Gnn.aggRef x0 x1 x2) x0) x3) (DenseRows.asRow x4) := by
    unfold Read.val_main_v14 Read.val_main_v13 Read.val_main_v12 Read.val_main_v11
    rw [e10]
    exact layer1_eq _ _ _ _ _
  have e15 : Read.val_main_v15 (F := Ideal) x0 x1 x2 x3 x4
      = DenseRows.relu (DenseRows.addRow (DenseRows.mm (Cert.Gnn.cat (Cert.Gnn.aggRef x0 x1 x2) x0) x3) (DenseRows.asRow x4)) := by
    unfold Read.val_main_v15 Read.val_main_call0_v0 Read.val_main_call0_cst
    rw [e14]
    exact relu_eq _ _
  have e19 : Read.val_main_v19 (F := Ideal) x0 x1 x2 x3 x4 x5 x6
      = DenseRows.addRow (DenseRows.mm (DenseRows.relu (DenseRows.addRow (DenseRows.mm (Cert.Gnn.cat (Cert.Gnn.aggRef x0 x1 x2) x0) x3) (DenseRows.asRow x4))) x5) (DenseRows.asRow x6) := by
    unfold Read.val_main_v19 Read.val_main_v18 Read.val_main_v17 Read.val_main_v16
    rw [e15]
    exact layer2_eq _ _ _ _ _
  have e20 : Read.val_main_v20 (F := Ideal) x0 x1 x2 x3 x4 x5 x6
      = DenseRows.relu (DenseRows.addRow (DenseRows.mm (DenseRows.relu (DenseRows.addRow (DenseRows.mm (Cert.Gnn.cat (Cert.Gnn.aggRef x0 x1 x2) x0) x3) (DenseRows.asRow x4))) x5) (DenseRows.asRow x6)) := by
    unfold Read.val_main_v20 Read.val_main_call1_v0 Read.val_main_call1_cst
    rw [e19]
    exact relu_eq _ _
  unfold Read.val_main_v24 Read.val_main_v23 Read.val_main_v22 Read.val_main_v21
  rw [e20]
  exact layer2_eq _ _ _ _ _

/-- From a memory whose source words read node numbers, the second program runs and ends with its result at
    the whole computation of its arguments, the arguments unchanged. -/
theorem run_G (m : (ℓ : Loc nD τ sig) → Buf (Elt Ideal) ℓ) (ρ : Dev nD → PrngReg)
    (hsrc : ∀ (c : Dev nD) (p : Fin 640000),
      0 ≤ ((m ((c.tc : Thread nD τ).loc main_arg1) : IVec S640000 32) (ix1 p)).toInt
        ∧ ((m ((c.tc : Thread nD τ).loc main_arg1) : IVec S640000 32) (ix1 p)).toInt < 10000) :
    θ_run (defs (F := Ideal)) (onTc (τ := τ) (main (F := Ideal))) ⟨m, fun _ => 0, ρ⟩ fun r => ∀ c : Dev nD,
      r.2.mem ((c.tc : Thread nD τ).loc main_v24)
        = Cert.Gnn.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono
    (fun _ h c => ⟨(h c).1.trans
        ((Read.val_main_v24_eq (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))).trans
          (result_eq (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (hsrc c))),
      (h c).2⟩)
    (Cert.ReferenceIdeal.Value.run (F := Ideal) m ρ)

end Cert.ReferenceIdeal.RefValue

end
-- ==== Proof.Region0Body.lean ====
/-
  The first stage's body, read as a value.

  At one grid point the body holds 1280 source words, 1280 destination words, the padded feature table and
  its running block of 10112 × 128 sums.  It works through the words in five sub-tiles of 256.  For a
  sub-tile it forms the 256 × 10112 indicator matrix of the source words against the row numbers and
  multiplies it into the table (row e of the product is the message of edge e); it forms the indicator
  matrix of the destination words and multiplies its transpose into the messages (row n of that product sums
  the messages of the sub-tile's edges whose destination indicator at n is 1); and it adds the result to the
  running block.  At the first point of each half of the grid the running block is first set to zero.
-/
import proofs.«419023_j39298950758677_3_alg».proof.Proof.Gen.KernelIdeal.Frame
import proofs.«419023_j39298950758677_3_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.Lib.StableHlo.Predicate
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

variable {F : FTy → Type} [FloatOps F]

/-! ## One sub-tile, as the vector unit spells it -/

/-- The indicator matrix of a column of 256 words against the row numbers 0 … 10111. -/
def hot (s : IVec S256x1 32) : FVec F S256x10112 .bf16 :=
  truncf .bf16 (sitofp .f32 (extui 32 (cmpi .eq
    (broadcastTo S256x10112 (iota .tc S1x10112 32 [1] iota_S1x10112_d1_w32) broadcasts_S1x10112_S256x10112)
    (broadcastTo S256x10112 s broadcasts_S256x1_S256x10112)) natLt_1_32)) bitsLt_bf16_f32

/-- The messages of a sub-tile: the indicator matrix of its source words times the table. -/
def gath (s : IVec S256x1 32) (X : FVec F S10112x128 .bf16) : FVec F S256x128 .bf16 :=
  truncf .bf16 (matmul dot_S256x10112_S10112x128_S256x128_1_0_0_1_n_n none (hot s) X
    (constant S256x128 .f32 0x00000000#32)) bitsLt_bf16_f32

/-- The sub-tile's contribution: the transposed indicator matrix of its destination words times the messages. -/
def scat (d : IVec S256x1 32) (M : FVec F S256x128 .bf16) : FVec F S10112x128 .f32 :=
  matmul dot_S256x10112_S256x128_S10112x128_0_0_1_1_n_n none (hot d) M (constant S10112x128 .f32 0x00000000#32)

/-- The running block after one sub-tile. -/
def tile (s d : Vec F S1x256x1 .i32) (X : FVec F S10112x128 .bf16) (acc : Vec F S1x10112x128 .f32) :
    FVec F S1x10112x128 .f32 :=
  shapeCast S1x10112x128 (addf (shapeCast S10112x128 acc shapeCasts_S1x10112x128_S10112x128)
    (scat (shapeCast S256x1 d shapeCasts_S1x256x1_S256x1) (gath (shapeCast S256x1 s shapeCasts_S1x256x1_S256x1) X)))
    shapeCasts_S10112x128_S1x10112x128

/-- The five stores' payloads are the sub-tile step. -/
theorem pay3_eq (v7 v10 : Vec F S1x256x1 .i32) (v18 : Vec F S10112x128 .bf16) (v29 : Vec F S1x10112x128 .f32) :
    k0_pay3 v7 v10 v18 v29 = tile v7 v10 (shapeCast S10112x128 v18 shapeCasts_S10112x128_S10112x128) v29 := rfl

theorem pay4_eq (v38 v41 : Vec F S1x256x1 .i32) (v49 : Vec F S10112x128 .bf16) (v60 : Vec F S1x10112x128 .f32) :
    k0_pay4 (iota .tc S1x10112 32 [1] iota_S1x10112_d1_w32) v38 v41 v49 v60
      = tile v38 v41 (shapeCast S10112x128 v49 shapeCasts_S10112x128_S10112x128) v60 := rfl

theorem pay8_eq (v69 v72 : Vec F S1x256x1 .i32) (v80 : Vec F S10112x128 .bf16) (v91 : Vec F S1x10112x128 .f32) :
    k0_pay8 (iota .tc S1x10112 32 [1] iota_S1x10112_d1_w32) (k0_pay5 v69) (k0_pay6 v72)
        (k0_pay7 (iota .tc S1x10112 32 [1] iota_S1x10112_d1_w32)) v80 v91
      = tile v69 v72 (shapeCast S10112x128 v80 shapeCasts_S10112x128_S10112x128) v91 := rfl

theorem pay11_eq (v100 v103 : Vec F S1x256x1 .i32) (v111 : Vec F S10112x128 .bf16) (v122 : Vec F S1x10112x128 .f32) :
    k0_pay11 (iota .tc S1x10112 32 [1] iota_S1x10112_d1_w32) (k0_pay9 v103)
        (k0_pay10 (iota .tc S1x10112 32 [1] iota_S1x10112_d1_w32) v100 v111) v122
      = tile v100 v103 (shapeCast S10112x128 v111 shapeCasts_S10112x128_S10112x128) v122 := rfl

theorem pay1_eq (v131 v134 : Vec F S1x256x1 .i32) (v142 : Vec F S10112x128 .bf16) (v153 : Vec F S1x10112x128 .f32) :
    k0_pay1 (k0_pay12 (iota .tc S1x10112 32 [1] iota_S1x10112_d1_w32) v131 v134 v142) v153
      = tile v131 v134 (shapeCast S10112x128 v142 shapeCasts_S10112x128_S10112x128) v153 := rfl

/-! ## The body's stores, read back -/

theorem hz3 : (![0, 0, 0] : Fin 3 → Nat) = fun _ => 0 := funext fun a => by fin_cases a <;> rfl
theorem hz2 : (![0, 0] : Fin 2 → Nat) = fun _ => 0 := funext fun a => by fin_cases a <;> rfl

/-- Rows 256 j … 256 j + 255 of a block of 1280 words. -/
abbrev sub (x : Vec F S1x1280x1 .i32) (o : Nat) (ho : o + 256 ≤ 1280) : Vec F S1x256x1 .i32 :=
  View.ld x (Rect.unit (s := S1x1280x1) ![0, o, 0] S1x256x1.size (fun a => by
    match a with
    | ⟨0, _⟩ => exact Nat.le_refl _
    | ⟨1, _⟩ => exact ho
    | ⟨2, _⟩ => exact Nat.le_refl _))

/-- The five sub-tile steps over the point's blocks, from a running block. -/
def five (x0 x1 : Vec F S1x1280x1 .i32) (x2 : Vec F S10112x128 .bf16) (acc : Vec F S1x10112x128 .f32) :
    FVec F S1x10112x128 .f32 :=
  tile (sub x0 1024 (by decide)) (sub x1 1024 (by decide)) x2
    (tile (sub x0 768 (by decide)) (sub x1 768 (by decide)) x2
      (tile (sub x0 512 (by decide)) (sub x1 512 (by decide)) x2
        (tile (sub x0 256 (by decide)) (sub x1 256 (by decide)) x2
          (tile (sub x0 0 (by decide)) (sub x1 0 (by decide)) x2 acc))))

set_option maxHeartbeats 1000000 in
/-- Away from the first point of a half, the body leaves the five steps over what the block held. -/
theorem out_B (c : Dev nD) (i : grid0.Coords) (a2 : Memref sig .tc .vmem S1x1280x1 .i32) (h2 : a2.IsWhole)
    (a3 : Memref sig .tc .vmem S1x1280x1 .i32) (h3 : a3.IsWhole) (a4 : Memref sig .tc .vmem S10112x128 .bf16) (h4 : a4.IsWhole)
    (a5 : Memref sig .tc .vmem S1x10112x128 .f32) (h5 : a5.IsWhole) (hc : ¬cond0_0 i)
    (x0 x1 : Vec F S1x1280x1 .i32) (x2 : Vec F S10112x128 .bf16) (xo : Vec F S1x10112x128 .f32) :
    out0_B_3 c i a2 h2 a3 h3 a4 h4 a5 h5 hc x0 x1 x2 xo = five x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_cons_unit_zero (S := S1x10112x128) hz3]
  sl_unfold_words
  simp only [View.readCov_cons_toLoadRect]
  rw [pay1_eq, pay11_eq, pay8_eq, pay4_eq, pay3_eq]
  simp only [View.readAt_eq_ld, h2.read_unread, h3.read_unread, h4.read_unread, h5.read_unread,
    View.ld_unit_zero (S := S10112x128) hz2, View.ld_unit_zero (S := S1x10112x128) hz3, shapeCast_self]
  rfl

set_option maxHeartbeats 1000000 in
/-- At the first point of a half, the body leaves the five steps over the zero block. -/
theorem out_A (c : Dev nD) (i : grid0.Coords) (a2 : Memref sig .tc .vmem S1x1280x1 .i32) (h2 : a2.IsWhole)
    (a3 : Memref sig .tc .vmem S1x1280x1 .i32) (h3 : a3.IsWhole) (a4 : Memref sig .tc .vmem S10112x128 .bf16) (h4 : a4.IsWhole)
    (a5 : Memref sig .tc .vmem S1x10112x128 .f32) (h5 : a5.IsWhole) (hc : cond0_0 i)
    (x0 x1 : Vec F S1x1280x1 .i32) (x2 : Vec F S10112x128 .bf16) :
    out0_A_3 c i a2 h2 a3 h3 a4 h4 a5 h5 hc x0 x1 x2 = five x0 x1 x2 (k0_pay2 (F := F)) := by
  unfold out0_A_3
  rw [View.read_writes_eq_canon _ _ _ (cover0_A_3 c i a2 h2 a3 h3 a4 h4 a5 h5 hc x0 x1 x2)]
  unfold kernelRun0_A
  dsimp only
  rw [View.canon_cons_unit_zero (S := S1x10112x128) hz3]
  sl_unfold_words
  simp only [View.readCov_cons_toLoadRect]
  rw [pay1_eq, pay11_eq, pay8_eq, pay4_eq, pay3_eq]
  simp only [View.readAt_eq_ld, h2.read_unread, h3.read_unread, h4.read_unread,
    View.ld_unit_zero (S := S10112x128) hz2, View.ld_unit_zero (S := S1x10112x128) hz3, shapeCast_self]
  rfl

/-! ## One sub-tile over the extended reals -/

section AtIdeal

open Cert.Gnn

abbrev dP := dot_S256x10112_S10112x128_S256x128_1_0_0_1_n_n
abbrev dT := dot_S256x10112_S256x128_S10112x128_0_0_1_1_n_n

/-- The indicator matrix at (e, n): 1 when the word of n is the e-th word, else 0. -/
theorem hot_apply (s : IVec S256x1 32) (e : Fin 256) (n : Fin 10112) :
    hot (F := Ideal) s (ix2 e n) = oh (s (ix2 e (0 : Fin 1))) n.val := by
  unfold hot
  rw [truncf_apply, sitofp_apply, extui_apply]
  show FloatOps.sitofp (F := Ideal) .f32 ((IntOp.cmpi .eq
      (broadcastTo S256x10112 (iota .tc S1x10112 32 [1] iota_S1x10112_d1_w32) broadcasts_S1x10112_S256x10112 (ix2 e n))
      (broadcastTo S256x10112 s broadcasts_S256x1_S256x10112 (ix2 e n))).setWidth 32) = _
  rw [broadcastTo_apply _ broadcasts_S1x10112_S256x10112 (ix2 e n) (ix2 (0 : Fin 1) n) (fun a => by
      match a with
      | ⟨0, _⟩ => rfl
      | ⟨1, _⟩ => rfl),
    broadcastTo_apply _ broadcasts_S256x1_S256x10112 (ix2 e n) (ix2 e (0 : Fin 1)) (fun a => by
      match a with
      | ⟨0, _⟩ => rfl
      | ⟨1, _⟩ => rfl),
    iota_single_apply]
  show FloatOps.sitofp (F := Ideal) .f32 ((IntOp.cmpi .eq (BitVec.ofNat 32 n.val) (s (ix2 e (0 : Fin 1)))).setWidth 32) = _
  unfold oh
  by_cases h : BitVec.ofNat 32 n.val = s (ix2 e (0 : Fin 1))
  · rw [if_pos h, StableHlo.Predicate.cmpi_eq_iff.mpr h]
    show (((1#1 : BitVec 1).setWidth 32).toInt : ℝ) = ((1 : ℝ) : EReal)
    norm_num
  · rw [if_neg h]
    have h0 : IntOp.cmpi .eq (BitVec.ofNat 32 n.val) (s (ix2 e (0 : Fin 1))) = 0#1 := by
      rcases BitVec.eq_zero_or_eq_one (IntOp.cmpi .eq (BitVec.ofNat 32 n.val) (s (ix2 e (0 : Fin 1)))) with h0 | h1
      · exact h0
      · exact absurd (StableHlo.Predicate.cmpi_eq_iff.mp h1) h
    rw [h0]
    show (((0#1 : BitVec 1).setWidth 32).toInt : ℝ) = ((0 : ℝ) : EReal)
    norm_num

theorem lhs_dP_0 (i : S256x128.Idx) (q : dP.contr.Idx) : (dP.lhsIdx i q 0).val = (i 0).val := by
  unfold DotDims.lhsIdx
  rw [dif_neg (show ¬(0 : Fin S256x10112.rank) ∈ dP.lhsBatch by decide), dif_pos (show (0 : Fin S256x10112.rank) ∈ dP.lhsNonContracting by decide)]
  rfl
theorem lhs_dP_1 (i : S256x128.Idx) (q : dP.contr.Idx) : (dP.lhsIdx i q 1).val = (q ⟨0, by decide⟩).val :=
  dP.lhsIdx_val_of_single rfl i q
theorem rhs_dP_0 (i : S256x128.Idx) (q : dP.contr.Idx) : (dP.rhsIdx i q 0).val = (q ⟨0, by decide⟩).val :=
  dP.rhsIdx_val_of_single rfl i q
theorem rhs_dP_1 (i : S256x128.Idx) (q : dP.contr.Idx) : (dP.rhsIdx i q 1).val = (i 1).val := by
  unfold DotDims.rhsIdx
  rw [dif_neg (show ¬(1 : Fin S10112x128.rank) ∈ dP.rhsBatch by decide), dif_pos (show (1 : Fin S10112x128.rank) ∈ dP.rhsNonContracting by decide)]
  rfl

/-- Row e of the messages is the message of the e-th source word. -/
theorem gath_apply (s : IVec S256x1 32) (X : FVec Ideal S10112x128 .bf16) (e : Fin 256) (k : Fin 128) :
    gath (F := Ideal) s X (ix2 e k) = msg X (s (ix2 e (0 : Fin 1))) k := by
  unfold gath
  rw [truncf_apply]
  show FloatOps.matmul dP none (hot (F := Ideal) s) X (constant S256x128 .f32 0x00000000#32) (ix2 e k) = _
  rw [Ideal.matmul_constant_zero_apply, ← Equiv.sum_comp (contrEquiv1 dP 10112 rfl rfl).symm]
  unfold msg
  refine Finset.sum_congr rfl fun n' _ => ?_
  have hk := contrEquiv1_symm_val dP 10112 rfl rfl n'
  have el : dP.lhsIdx (ix2 e k) ((contrEquiv1 dP 10112 rfl rfl).symm n') = ix2 e n' := funext fun a => Fin.ext (by
    match a with
    | ⟨0, _⟩ => exact lhs_dP_0 _ _
    | ⟨1, _⟩ => exact (lhs_dP_1 _ _).trans hk)
  have er : dP.rhsIdx (ix2 e k) ((contrEquiv1 dP 10112 rfl rfl).symm n') = ix2 n' k := funext fun a => Fin.ext (by
    match a with
    | ⟨0, _⟩ => exact (rhs_dP_0 _ _).trans hk
    | ⟨1, _⟩ => exact rhs_dP_1 _ _)
  rw [el, er, hot_apply]

theorem lhs_dT_0 (i : S10112x128.Idx) (q : dT.contr.Idx) : (dT.lhsIdx i q 0).val = (q ⟨0, by decide⟩).val :=
  dT.lhsIdx_val_of_single rfl i q
theorem lhs_dT_1 (i : S10112x128.Idx) (q : dT.contr.Idx) : (dT.lhsIdx i q 1).val = (i 0).val := by
  unfold DotDims.lhsIdx
  rw [dif_neg (show ¬(1 : Fin S256x10112.rank) ∈ dT.lhsBatch by decide), dif_pos (show (1 : Fin S256x10112.rank) ∈ dT.lhsNonContracting by decide)]
  rfl
theorem rhs_dT_0 (i : S10112x128.Idx) (q : dT.contr.Idx) : (dT.rhsIdx i q 0).val = (q ⟨0, by decide⟩).val :=
  dT.rhsIdx_val_of_single rfl i q
theorem rhs_dT_1 (i : S10112x128.Idx) (q : dT.contr.Idx) : (dT.rhsIdx i q 1).val = (i 1).val := by
  unfold DotDims.rhsIdx
  rw [dif_neg (show ¬(1 : Fin S256x128.rank) ∈ dT.rhsBatch by decide), dif_pos (show (1 : Fin S256x128.rank) ∈ dT.rhsNonContracting by decide)]
  rfl

/-- Row n of the contribution sums the messages weighted by the destination indicators at n. -/
theorem scat_apply (d : IVec S256x1 32) (M : FVec Ideal S256x128 .bf16) (n : Fin 10112) (k : Fin 128) :
    scat (F := Ideal) d M (ix2 n k) = ∑ e : Fin 256, oh (d (ix2 e (0 : Fin 1))) n.val * M (ix2 e k) := by
  unfold scat
  show FloatOps.matmul dT none (hot (F := Ideal) d) M (constant S10112x128 .f32 0x00000000#32) (ix2 n k) = _
  rw [Ideal.matmul_constant_zero_apply, ← Equiv.sum_comp (contrEquiv1 dT 256 rfl rfl).symm]
  refine Finset.sum_congr rfl fun e _ => ?_
  have hk := contrEquiv1_symm_val dT 256 rfl rfl e
  have el : dT.lhsIdx (ix2 n k) ((contrEquiv1 dT 256 rfl rfl).symm e) = ix2 e n := funext fun a => Fin.ext (by
    match a with
    | ⟨0, _⟩ => exact (lhs_dT_0 _ _).trans hk
    | ⟨1, _⟩ => exact lhs_dT_1 _ _)
  have er : dT.rhsIdx (ix2 n k) ((contrEquiv1 dT 256 rfl rfl).symm e) = ix2 e k := funext fun a => Fin.ext (by
    match a with
    | ⟨0, _⟩ => exact (rhs_dT_0 _ _).trans hk
    | ⟨1, _⟩ => exact rhs_dT_1 _ _)
  rw [el, er, hot_apply]

/-- One sub-tile step at an entry: the running entry plus, over the sub-tile's 256 edges, the destination
    indicator at the row times the edge's message at the column. -/
theorem tile_apply (s d : IVec S1x256x1 32) (X : FVec Ideal S10112x128 .bf16) (acc : FVec Ideal S1x10112x128 .f32)
    (n : Fin 10112) (k : Fin 128) :
    tile (F := Ideal) s d X acc (ix3 (0 : Fin 1) n k)
      = acc (ix3 (0 : Fin 1) n k)
        + ∑ e : Fin 256, oh (d (ix3 (0 : Fin 1) e (0 : Fin 1))) n.val * msg X (s (ix3 (0 : Fin 1) e (0 : Fin 1))) k := by
  unfold tile
  rw [shapeCast_ab_1ab_apply, addf_apply, shapeCast_1ab_ab_apply, scat_apply]
  refine congrArg (acc (ix3 (0 : Fin 1) n k) + ·) (Finset.sum_congr rfl fun e _ => ?_)
  rw [gath_apply, shapeCast_1ab_ab_apply, shapeCast_1ab_ab_apply]

end AtIdeal

end Cert.KernelIdeal.Region0

end
-- ==== Proof.Region0.lean ====
/-
  The first stage: the two partial aggregates.

  The stage's grid has 2 × 250 points; point t belongs to half t div 250 and holds that half's edges
  1280 (t mod 250) … 1280 (t mod 250) + 1279.  Its output block is the half's whole 10112 × 128 block, kept in
  place from point to point and written back after the half's last point.  At a point the body adds to every
  entry (n, k) of the running block, for each of its 1280 edges, the destination indicator at n times the
  edge's message at k; at the half's first point it starts from zero.  So after point t the running entry is
  the sum of those terms over the half's first 1280 (t mod 250 + 1) edges, and what is written back after the
  half's last point is the sum over all of its 320000 edges.  The two written blocks are the two halves of the
  result array.
-/
import proofs.«419023_j39298950758677_3_alg».proof.Proof.Region0Body
import Mathlib.Algebra.BigOperators.Fin
import Mathlib.Algebra.BigOperators.Group.Finset.Basic

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Gnn
open Idealize.ShloMosaic.Pipeline (Dat)

/-! ## One point's 1280 edges -/

/-- The term of edge e of a point's blocks at entry (r, k); zero past the blocks' end. -/
def g (x0 x1 : IVec S1x1280x1 32) (x2 : FVec Ideal S10112x128 .bf16) (r : Fin 10112) (k : Fin 128) (e : Nat) : EReal :=
  if he : e < 1280 then
    oh (x1 (ix3 (0 : Fin 1) ⟨e, he⟩ (0 : Fin 1))) r.val * msg x2 (x0 (ix3 (0 : Fin 1) ⟨e, he⟩ (0 : Fin 1))) k
  else 0

/-- Word e of the sub-block starting at o is word o + e of the block. -/
theorem sub_apply (x : IVec S1x1280x1 32) (o : Nat) (ho : o + 256 ≤ 1280) (e : Fin 256) :
    sub (F := Ideal) x o ho (ix3 (0 : Fin 1) e (0 : Fin 1))
      = x (ix3 (0 : Fin 1) ⟨o + e.val, by have := e.isLt; omega⟩ (0 : Fin 1)) := by
  show x _ = x _
  congr 1
  funext a
  apply Fin.ext
  match a with
  | ⟨0, _⟩ => rfl
  | ⟨1, _⟩ => show o + 1 * e.val = o + e.val; omega
  | ⟨2, _⟩ => rfl

/-- A sub-tile's 256 terms are the block's terms o … o + 255. -/
theorem tile_terms (x0 x1 : IVec S1x1280x1 32) (x2 : FVec Ideal S10112x128 .bf16) (r : Fin 10112) (k : Fin 128)
    (o : Nat) (ho : o + 256 ≤ 1280) :
    (∑ e : Fin 256, oh (sub (F := Ideal) x1 o ho (ix3 (0 : Fin 1) e (0 : Fin 1))) r.val
        * msg x2 (sub (F := Ideal) x0 o ho (ix3 (0 : Fin 1) e (0 : Fin 1))) k)
      = ∑ i ∈ Finset.range 256, g x0 x1 x2 r k (o + i) := by
  rw [Finset.sum_range]
  refine Finset.sum_congr rfl fun e _ => ?_
  have he : o + e.val < 1280 := by have := e.isLt; omega
  rw [sub_apply, sub_apply]
  unfold g
  rw [dif_pos he]

/-- 1280 terms are five runs of 256. -/
theorem sum_five_runs (f : Nat → EReal) :
    ∑ e ∈ Finset.range 1280, f e
      = ((((∑ i ∈ Finset.range 256, f (0 + i)) + ∑ i ∈ Finset.range 256, f (256 + i))
          + ∑ i ∈ Finset.range 256, f (512 + i)) + ∑ i ∈ Finset.range 256, f (768 + i))
        + ∑ i ∈ Finset.range 256, f (1024 + i) := by
  have h : (1280 : Nat) = 256 + 256 + 256 + 256 + 256 := rfl
  rw [h, Finset.sum_range_add, Finset.sum_range_add, Finset.sum_range_add, Finset.sum_range_add]
  simp only [Nat.zero_add]

/-- The body's five steps add the point's 1280 terms to the running entry. -/
theorem five_apply (x0 x1 : IVec S1x1280x1 32) (x2 : FVec Ideal S10112x128 .bf16) (acc : FVec Ideal S1x10112x128 .f32)
    (r : Fin 10112) (k : Fin 128) :
    five (F := Ideal) x0 x1 x2 acc (ix3 (0 : Fin 1) r k)
      = acc (ix3 (0 : Fin 1) r k) + ∑ e ∈ Finset.range 1280, g x0 x1 x2 r k e := by
  unfold five
  rw [tile_apply, tile_apply, tile_apply, tile_apply, tile_apply, tile_terms, tile_terms, tile_terms, tile_terms, tile_terms,
    sum_five_runs]
  simp only [add_assoc]

/-- The zero block is zero. -/
theorem pay2_apply (r : Fin 10112) (k : Fin 128) : k0_pay2 (F := Ideal) (ix3 (0 : Fin 1) r k) = 0 := by
  unfold k0_pay2
  rw [shapeCast_ab_1ab_apply]
  exact Ideal.ofBits_zero_f32

/-! ## The arrays as the stage finds them, and the points' blocks -/

variable (V : (c : Dev nD) → (b : Ref sig .tc) → Buf (Elt Ideal) ((c : Thread nD τ).loc b))

/-- The source words, the destination words and the table at the stage's entry. -/
abbrev Sarr (c : Dev nD) : IVec S2x320000x1 32 := V c main_v4
abbrev Darr (c : Dev nD) : IVec S2x320000x1 32 := V c main_v5
abbrev Xarr (c : Dev nD) : FVec Ideal S10112x128 .bf16 := V c main_v1

/-- The term of edge q of half h at entry (r, k); zero outside the arrays. -/
def eterm (c : Dev nD) (h q : Nat) (r : Fin 10112) (k : Fin 128) : EReal :=
  if hh : h < 2 ∧ q < 320000 then
    oh (Darr V c (ix3 ⟨h, hh.1⟩ ⟨q, hh.2⟩ (0 : Fin 1))) r.val
      * msg (Xarr V c) (Sarr V c (ix3 ⟨h, hh.1⟩ ⟨q, hh.2⟩ (0 : Fin 1))) k
  else 0

/-- The printed index maps over the grid: the word windows' block is (t div 250, t mod 250, 0), the table's
    (0, 0), the output's (t div 250, 0, 0). -/
theorem idx_facts : ∀ t : Fin cfg0.N,
    win0_0.index t (0 : Fin 3) = t.val / 250 ∧ win0_0.index t (1 : Fin 3) = t.val % 250 ∧ win0_0.index t (2 : Fin 3) = 0
    ∧ win0_1.index t (0 : Fin 3) = t.val / 250 ∧ win0_1.index t (1 : Fin 3) = t.val % 250 ∧ win0_1.index t (2 : Fin 3) = 0
    ∧ win0_2.index t (0 : Fin 2) = 0 ∧ win0_2.index t (1 : Fin 2) = 0
    ∧ win0_3.index t (0 : Fin 3) = t.val / 250 ∧ win0_3.index t (1 : Fin 3) = 0 ∧ win0_3.index t (2 : Fin 3) = 0 :=
  (by decide +kernel : ∀ t : Fin grid0.N, _)

theorem t_lt (t : Fin cfg0.N) : t.val < 500 := Nat.lt_of_lt_of_eq t.isLt N_0

/-- Word e of point t's source block is word 1280 (t mod 250) + e of half t div 250. -/
theorem blk0_apply (c : Dev nD) (t : Fin cfg0.N) (e : Fin 1280) :
    (iblk0 V c 0 t : IVec S1x1280x1 32) (ix3 (0 : Fin 1) e (0 : Fin 1))
      = Sarr V c (ix3 ⟨t.val / 250, by have := t_lt t; omega⟩
          ⟨t.val % 250 * 1280 + e.val, by have := e.isLt; have := Nat.mod_lt t.val (show 250 > 0 by decide); omega⟩ (0 : Fin 1)) := by
  obtain ⟨e0, e1, e2, -⟩ := idx_facts t
  unfold iblk0
  rw [View.read_apply]
  show (V c main_v4 : IVec S2x320000x1 32) _ = (V c main_v4 : IVec S2x320000x1 32) _
  congr 1
  funext a
  apply Fin.ext
  match a with
  | ⟨0, _⟩ => show win0_0.index t (0 : Fin 3) * 1 + 1 * 0 = t.val / 250; omega
  | ⟨1, _⟩ => show win0_0.index t (1 : Fin 3) * 1280 + 1 * e.val = t.val % 250 * 1280 + e.val; omega
  | ⟨2, _⟩ => show win0_0.index t (2 : Fin 3) * 1 + 1 * 0 = 0; omega

/-- The same for the destination block. -/
theorem blk1_apply (c : Dev nD) (t : Fin cfg0.N) (e : Fin 1280) :
    (iblk0 V c 1 t : IVec S1x1280x1 32) (ix3 (0 : Fin 1) e (0 : Fin 1))
      = Darr V c (ix3 ⟨t.val / 250, by have := t_lt t; omega⟩
          ⟨t.val % 250 * 1280 + e.val, by have := e.isLt; have := Nat.mod_lt t.val (show 250 > 0 by decide); omega⟩ (0 : Fin 1)) := by
  obtain ⟨-, -, -, e0, e1, e2, -⟩ := idx_facts t
  unfold iblk0
  rw [View.read_apply]
  show (V c main_v5 : IVec S2x320000x1 32) _ = (V c main_v5 : IVec S2x320000x1 32) _
  congr 1
  funext a
  apply Fin.ext
  match a with
  | ⟨0, _⟩ => show win0_1.index t (0 : Fin 3) * 1 + 1 * 0 = t.val / 250; omega
  | ⟨1, _⟩ => show win0_1.index t (1 : Fin 3) * 1280 + 1 * e.val = t.val % 250 * 1280 + e.val; omega
  | ⟨2, _⟩ => show win0_1.index t (2 : Fin 3) * 1 + 1 * 0 = 0; omega

/-- Every point's table block is the whole table. -/
theorem blk2_eq (c : Dev nD) (t : Fin cfg0.N) : (iblk0 V c 2 t : FVec Ideal S10112x128 .bf16) = Xarr V c := by
  obtain ⟨-, -, -, -, -, -, e0, e1, -⟩ := idx_facts t
  funext j
  unfold iblk0
  rw [View.read_apply]
  show (V c main_v1 : FVec Ideal S10112x128 .bf16) _ = (V c main_v1 : FVec Ideal S10112x128 .bf16) j
  congr 1
  funext a
  apply Fin.ext
  match a with
  | ⟨0, _⟩ => show win0_2.index t (0 : Fin 2) * 10112 + 1 * (j 0).val = (j 0).val; omega
  | ⟨1, _⟩ => show win0_2.index t (1 : Fin 2) * 128 + 1 * (j 1).val = (j 1).val; omega

/-- A point's terms are its half's terms 1280 (t mod 250) … -/
theorem g_blk (c : Dev nD) (t : Fin cfg0.N) (r : Fin 10112) (k : Fin 128) (e : Nat) (he : e < 1280) :
    g (iblk0 V c 0 t) (iblk0 V c 1 t) (iblk0 V c 2 t) r k e = eterm V c (t.val / 250) (t.val % 250 * 1280 + e) r k := by
  have ht := t_lt t
  have hm := Nat.mod_lt t.val (show 250 > 0 by decide)
  unfold g eterm
  rw [dif_pos he, dif_pos (show t.val / 250 < 2 ∧ t.val % 250 * 1280 + e < 320000 from ⟨by omega, by omega⟩)]
  rw [blk0_apply V c t ⟨e, he⟩, blk1_apply V c t ⟨e, he⟩, blk2_eq V c t]

theorem g_blk_sum (c : Dev nD) (t : Fin cfg0.N) (r : Fin 10112) (k : Fin 128) :
    ∑ e ∈ Finset.range 1280, g (iblk0 V c 0 t) (iblk0 V c 1 t) (iblk0 V c 2 t) r k e
      = ∑ e ∈ Finset.range 1280, eterm V c (t.val / 250) (t.val % 250 * 1280 + e) r k :=
  Finset.sum_congr rfl fun e he => g_blk V c t r k e (Finset.mem_range.mp he)

/-! ## The running block -/

/-- After point n the running entry is the sum of the half's first 1280 (n mod 250 + 1) terms. -/
theorem outsAt_eq (c : Dev nD) (r : Fin 10112) (k : Fin 128) : ∀ (n : Nat) (h : n < cfg0.N),
    outsAt0 V c n h (ix3 (0 : Fin 1) r k) = ∑ q ∈ Finset.range ((n % 250 + 1) * 1280), eterm V c (n / 250) q r k
  | 0, h => by
    rw [outsAt0_A V c ⟨0, h⟩ rfl, out_A, five_apply, pay2_apply, zero_add, g_blk_sum]
    simp only [Nat.zero_mod, Nat.zero_div, Nat.zero_mul, Nat.zero_add, Nat.one_mul]
  | n + 1, h => by
    by_cases h0 : (n + 1) % 250 = 0
    · rw [outsAt0_A V c ⟨n + 1, h⟩ h0, out_A, five_apply, pay2_apply, zero_add, g_blk_sum]
      show ∑ e ∈ Finset.range 1280, eterm V c ((n + 1) / 250) ((n + 1) % 250 * 1280 + e) r k = _
      rw [h0]
      simp only [Nat.zero_mul, Nat.zero_add, Nat.one_mul]
    · rw [outsAt0_B V c ⟨n + 1, h⟩ h0, out_B, five_apply, g_blk_sum]
      show outsAt0 V c n _ (ix3 (0 : Fin 1) r k)
          + ∑ e ∈ Finset.range 1280, eterm V c ((n + 1) / 250) ((n + 1) % 250 * 1280 + e) r k = _
      rw [outsAt_eq c r k n (Nat.lt_of_succ_lt h)]
      have hd : (n + 1) / 250 = n / 250 := by omega
      have hm : (n + 1) % 250 = n % 250 + 1 := by omega
      rw [hd, hm, show (n % 250 + 1 + 1) * 1280 = (n % 250 + 1) * 1280 + 1280 by ring, Finset.sum_range_add]

/-! ## The result array -/

/-- Where entry (0, r, k) of point t's output block sits in the result array. -/
theorem blk3_emb (t : Fin cfg0.N) (r : Fin 10112) (k : Fin 128) :
    ((cfg0.win 3).blk t).view.emb (ix3 (0 : Fin 1) r k)
      = (ix3 (⟨t.val / 250, by have := t_lt t; omega⟩ : Fin 2) r k : S2x10112x128.Idx) := by
  obtain ⟨-, -, -, -, -, -, -, -, e0, e1, e2⟩ := idx_facts t
  funext a
  apply Fin.ext
  match a with
  | ⟨0, _⟩ => show win0_3.index t (0 : Fin 3) * 1 + 1 * 0 = t.val / 250; omega
  | ⟨1, _⟩ => show win0_3.index t (1 : Fin 3) * 10112 + 1 * r.val = r.val; omega
  | ⟨2, _⟩ => show win0_3.index t (2 : Fin 3) * 128 + 1 * k.val = k.val; omega

/-- Point t's output block, read off a whole array, is the array's half t div 250. -/
theorem read_blk3 (G : FVec Ideal S2x10112x128 .f32) (t : Fin cfg0.N) (r : Fin 10112) (k : Fin 128) :
    (((cfg0.win 3).blk t).view.read (Elt Ideal) G : Vec Ideal S1x10112x128 .f32) (ix3 (0 : Fin 1) r k)
      = G (ix3 (⟨t.val / 250, by have := t_lt t; omega⟩ : Fin 2) r k) := by
  rw [View.read_apply]
  show G _ = G _
  exact congrArg G (blk3_emb t r k)

/-- What a half's last point writes back is the half's block of the partial aggregates. -/
theorem flushed_eq (c : Dev nD) (t : Fin cfg0.N) (hf : (cfg0.win 3).flush t = true) :
    (dat0 (F := Ideal) V c).flushed 3 t
      = ((cfg0.win 3).blk t).view.read (Elt Ideal) (aggPad (Sarr V c) (Darr V c) (Xarr V c)) := by
  have h249 : t.val % 250 = 249 := (flush0_3 t).mp hf
  have ht := t_lt t
  show (cfg0.win 3).cut (grid0.coords t) ((dat0 (F := Ideal) V c).after 3 t) = _
  rw [after0_3]
  funext j
  obtain ⟨u, r, k, rfl⟩ : ∃ (u : Fin 1) (r : Fin 10112) (k : Fin 128), (j : S1x10112x128.Idx) = ix3 u r k :=
    ⟨j 0, j 1, j 2, eq_ix3 j⟩
  obtain rfl : u = 0 := Subsingleton.elim _ _
  rw [read_blk3]
  show outsAt0 V c t.val t.isLt (ix3 (0 : Fin 1) r k) = _
  rw [outsAt_eq, h249, show (249 + 1) * 1280 = 320000 by norm_num, Finset.sum_range]
  unfold aggPad
  refine Finset.sum_congr rfl fun q _ => ?_
  unfold eterm
  rw [dif_pos (show t.val / 250 < 2 ∧ q.val < 320000 from ⟨by omega, q.isLt⟩)]

/-- An index of the result array is in point t's output block iff each coordinate is in the block's range. -/
theorem mem_blk3 (t : Fin cfg0.N) (i : S2x10112x128.Idx) :
    i ∈ ((cfg0.win 3).blk t).view.set ↔ ∀ a : Fin 3, win0_3.index t a * S1x10112x128.size a ≤ (i a).val
      ∧ (i a).val < win0_3.index t a * S1x10112x128.size a + S1x10112x128.size a := by
  show i ∈ ((View.whole main_v6).slice (win0_3.rect t)).set ↔ _
  rw [View.set_slice_whole, Rect.mem_set_unit]
  exact Iff.rfl

/-- For any contents at the stage's entry, its result array after the stage holds the two partial aggregates
    of the clipped words and the padded table found at the entry. -/
theorem value (c : Dev nD) :
    (dat0 (F := Ideal) V c).arrAt 3 cfg0.N = Cert.Gnn.aggPad (V c main_v4) (V c main_v5) (V c main_v1) :=
  (dat0 (F := Ideal) V c).arrAt_eq_of_cover 3 (aggPad (Sarr V c) (Darr V c) (Xarr V c)) (flushed_eq V c) fun i => by
    have hi0 : (i 0).val < 2 := (i 0).isLt
    have hi1 : (i 1).val < 10112 := (i 1).isLt
    have hi2 : (i 2).val < 128 := (i 2).isLt
    have hN : 250 * (i 0).val + 249 < cfg0.N := Nat.lt_of_lt_of_eq (show 250 * (i 0).val + 249 < 500 by omega) N_0.symm
    obtain ⟨-, -, -, -, -, -, -, -, e0, e1, e2⟩ := idx_facts ⟨250 * (i 0).val + 249, hN⟩
    refine ⟨⟨250 * (i 0).val + 249, hN⟩, (flush0_3 _).mpr (by show (250 * (i 0).val + 249) % 250 = 249; omega), ?_⟩
    rw [mem_blk3]
    intro a
    match a with
    | ⟨0, _⟩ =>
      show win0_3.index ⟨250 * (i 0).val + 249, hN⟩ (0 : Fin 3) * 1 ≤ (i 0).val
        ∧ (i 0).val < win0_3.index ⟨250 * (i 0).val + 249, hN⟩ (0 : Fin 3) * 1 + 1
      rw [e0]; dsimp only; omega
    | ⟨1, _⟩ =>
      show win0_3.index ⟨250 * (i 0).val + 249, hN⟩ (1 : Fin 3) * 10112 ≤ (i 1).val
        ∧ (i 1).val < win0_3.index ⟨250 * (i 0).val + 249, hN⟩ (1 : Fin 3) * 10112 + 10112
      rw [e1]; omega
    | ⟨2, _⟩ =>
      show win0_3.index ⟨250 * (i 0).val + 249, hN⟩ (2 : Fin 3) * 128 ≤ (i 2).val
        ∧ (i 2).val < win0_3.index ⟨250 * (i 0).val + 249, hN⟩ (2 : Fin 3) * 128 + 128
      rw [e2]; omega

end Cert.KernelIdeal.Region0

end
-- ==== Proof.Region1.lean ====
/-
  The second stage: the dense layers, block of rows by block of rows.

  The stage's grid has 8 points; point t works on rows 1264 t … 1264 t + 1263.  Its body adds the two partial
  aggregates of those rows, puts the rows of the padded feature table beside the sum, and applies the three
  dense layers; the layers are row-local, so the block it writes is that band of rows of the layers applied
  to the whole arrays.  The 8 blocks tile the 10112 rows, so the stage's result array is the layers applied
  to the whole arrays.
-/
import proofs.«419023_j39298950758677_3_alg».proof.Proof.Gen.KernelIdeal.Frame
import proofs.«419023_j39298950758677_3_alg».proof.Proof.Spec
import proofs.«419023_j39298950758677_3_alg».proof.Proof.LibDenseForms
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost

noncomputable section

namespace Cert.KernelIdeal.Region1

open Cert.KernelIdeal Cert.KernelIdeal.Gen Idealize.ShloMosaic Idealize.ShloMosaic.TcCoe Idealize.SL.Sem
open Idealize.ShloMosaic.ValueIdx
open DenseRows

/-! ## The body's operations as functions of indices -/

/-- The zero offsets of a whole-block access, as a constant function. -/
theorem hz2 : (![0, 0] : Fin 2 → Nat) = fun _ => 0 := funext fun a => by fin_cases a <;> rfl

/-- The two products' dimension numbers are those of a plain rows-by-columns product. -/
theorem dotA_eq : dot_S1264x256_S256x128_S1264x128_1_0_0_1_n_n = DotDims.plain 1264 256 128 := rfl
theorem dotB_eq : dot_S1264x128_S128x128_S1264x128_1_0_0_1_n_n = DotDims.plain 1264 128 128 := rfl

/-- A narrowing format change of a whole array of extended reals is that array. -/
theorem truncf_id {s : Shape} {φ ψ : FTy} (a : FVec Ideal s φ) (h : ψ.bits < φ.bits) :
    (truncf ψ a h : FVec Ideal s ψ) = a := rfl

/-- The product into the zero splat, whatever formats the operands are printed at, is the matrix product. -/
theorem matmul_plain_any {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant (⟨2, ![m, n]⟩ : Shape) .f32 0x00000000#32) = mm A B := by
  rw [matmul_zero_eq_dotGeneral]
  funext i
  obtain ⟨a, b, rfl⟩ : ∃ (a : Fin m) (b : Fin n), i = ix2 a b := ⟨i 0, i 1, eq_ix2 i⟩
  exact StackMember.dotGeneral_plain_apply prec A B a b

/-- Two blocks of 128 columns joined along the columns: the left block's columns, then the right block's. -/
theorem concat_eq_cat {m : Nat} (A B : Mat m 128)
    (h : Shape.Concatenates [(⟨2, ![m, 128]⟩ : Shape), (⟨2, ![m, 128]⟩ : Shape)] (⟨2, ![m, 256]⟩ : Shape) 1) :
    concatenate (⟨2, ![m, 256]⟩ : Shape) 1 [⟨(⟨2, ![m, 128]⟩ : Shape), A⟩, ⟨(⟨2, ![m, 128]⟩ : Shape), B⟩] h = Cert.Gnn.cat A B := by
  funext i
  obtain ⟨p, q, rfl⟩ : ∃ (p : Fin m) (q : Fin 256), i = ix2 p q := ⟨i 0, i 1, eq_ix2 i⟩
  unfold Cert.Gnn.cat
  by_cases hq : q.val < 128
  · rw [dif_pos (show ((ix2 p q : (⟨2, ![m, 256]⟩ : Shape).Idx) 1).val < 128 from hq)]
    refine concatenate_pair_apply_left (1 : Fin 2) A B h (ix2 p q) rfl _ fun b => ?_
    match b with
    | ⟨0, _⟩ => rfl
    | ⟨1, _⟩ => rfl
  · rw [dif_neg (show ¬ ((ix2 p q : (⟨2, ![m, 256]⟩ : Shape).Idx) 1).val < 128 from hq)]
    refine concatenate_pair_apply_right (1 : Fin 2) A B h (ix2 p q) rfl rfl _ (fun b hb => ?_) ?_
    · match b with
      | ⟨0, _⟩ => rfl
      | ⟨1, _⟩ => exact absurd rfl hb
    · show (q.val - 128) + 128 = q.val
      omega

/-- The two halves of a block of partial aggregates added. -/
def sumB (x0 : Vec Ideal S2x1264x128 .f32) : Mat 1264 128 := fun i => x0 (ix3 0 (i 0) (i 1)) + x0 (ix3 1 (i 0) (i 1))

/-- Half o of the block, read as a matrix of its 1264 rows. -/
theorem half_apply (x0 : Vec Ideal S2x1264x128 .f32) (o : Nat) (ho : o < 2)
    (inb : ∀ a, (![o, 0, 0] : Fin 3 → Nat) a + S1x1264x128.size a ≤ S2x1264x128.size a) (j : S1264x128.Idx) :
    shapeCast S1264x128 (View.ld x0 (Rect.unit (s := S2x1264x128) ![o, 0, 0] S1x1264x128.size inb)) shapeCasts_S1x1264x128_S1264x128 j
      = x0 (ix3 ⟨o, ho⟩ (j 0) (j 1)) := by
  rw [shapeCast_dropUnit_apply]
  show x0 _ = x0 _
  congr 1
  funext a
  apply Fin.ext
  match a with
  | ⟨0, _⟩ => simp only [LoadRect.idx_apply, Rect.off_unit, Rect.stride_unit]; show o + 1 * 0 = o; omega
  | ⟨1, _⟩ => simp only [LoadRect.idx_apply, Rect.off_unit, Rect.stride_unit]; show 0 + 1 * (j 0).val = (j 0).val; omega
  | ⟨2, _⟩ => simp only [LoadRect.idx_apply, Rect.off_unit, Rect.stride_unit]; show 0 + 1 * (j 1).val = (j 1).val; omega

/-- The same with the two operands named by equations. -/
theorem concat_eq_cat' {m : Nat} (X₁ X₂ A B : Mat m 128) (h1 : X₁ = A) (h2 : X₂ = B)
    (h : Shape.Concatenates [(⟨2, ![m, 128]⟩ : Shape), (⟨2, ![m, 128]⟩ : Shape)] (⟨2, ![m, 256]⟩ : Shape) 1) :
    concatenate (⟨2, ![m, 256]⟩ : Shape) 1 [⟨(⟨2, ![m, 128]⟩ : Shape), X₁⟩, ⟨(⟨2, ![m, 128]⟩ : Shape), X₂⟩] h = Cert.Gnn.cat A B := by
  subst h1 h2; exact concat_eq_cat _ _ h

/-- What the body leaves in the result's block, from the blocks it reads: the three dense layers on the sum of the
    two halves of the aggregates' block beside the table's block. -/
theorem out_eq (x0 : Vec Ideal S2x1264x128 .f32) (x1 : Vec Ideal S1264x128 .f32) (x2 : Vec Ideal S256x128 .f32) (x3 : Vec Ideal S1x128 .f32)
    (x4 : Vec Ideal S128x128 .f32) (x5 : Vec Ideal S1x128 .f32) (x6 : Vec Ideal S128x128 .f32) (x7 : Vec Ideal S1x128 .f32) :
    out1_8 x0 x1 x2 x3 x4 x5 x6 x7
      = Cert.Gnn.mlp (Cert.Gnn.cat (sumB x0) x1) x2 x3 x4 x5 x6 x7 := by
  unfold out1_8
  rw [View.canon_unit_zero hz2]
  simp only [View.ld_unit_zero (S := S1264x128) hz2, View.ld_unit_zero (S := S256x128) hz2, View.ld_unit_zero (S := S1x128) hz2, View.ld_unit_zero (S := S128x128) hz2]
  have hsum : addf (shapeCast S1264x128 (View.ld x0 r1_0) shapeCasts_S1x1264x128_S1264x128)
      (shapeCast S1264x128 (View.ld x0 r1_1) shapeCasts_S1x1264x128_S1264x128) = sumB x0 := by
    funext j
    show shapeCast S1264x128 (View.ld x0 r1_0) shapeCasts_S1x1264x128_S1264x128 j + shapeCast S1264x128 (View.ld x0 r1_1) shapeCasts_S1x1264x128_S1264x128 j = _
    rw [half_apply x0 0 (by decide), half_apply x0 1 (by decide)]
    rfl
  unfold k1_pay1 k1_pay2 Cert.Gnn.mlp
  simp only [shapeCast_self, truncf_id]
  rw [concat_eq_cat' _ _ (sumB x0) x1 hsum (shapeCast_self _ _)]
  rw [dotA_eq, dotB_eq]
  simp only [matmul_plain_any, bias_vector_form, relu_vector_form]

/-- Two matrices side by side: a row of the result is the two operands' rows side by side. -/
theorem cat_rows {m M : Nat} (A B : Mat m 128) (A' B' : Mat M 128) (p : Fin m) (P : Fin M)
    (hA : ∀ k, A (ix2 p k) = A' (ix2 P k)) (hB : ∀ k, B (ix2 p k) = B' (ix2 P k)) (c' : Fin 256) :
    Cert.Gnn.cat A B (ix2 p c') = Cert.Gnn.cat A' B' (ix2 P c') := by
  unfold Cert.Gnn.cat
  by_cases hc : c'.val < 128
  · rw [dif_pos (show ((ix2 p c' : (⟨2, ![m, 256]⟩ : Shape).Idx) 1).val < 128 from hc),
      dif_pos (show ((ix2 P c' : (⟨2, ![M, 256]⟩ : Shape).Idx) 1).val < 128 from hc)]
    exact hA _
  · rw [dif_neg (show ¬ ((ix2 p c' : (⟨2, ![m, 256]⟩ : Shape).Idx) 1).val < 128 from hc),
      dif_neg (show ¬ ((ix2 P c' : (⟨2, ![M, 256]⟩ : Shape).Idx) 1).val < 128 from hc)]
    exact hB _

/-! ## The blocks the body reads and writes, as bands of rows of the arrays -/

section Blocks

variable (V : (c : Dev nD) → (b : Ref sig .tc) → Buf (Elt Ideal) ((c : Thread nD τ).loc b)) (c : Dev nD)

/-- The block indices, decided over the 8 grid points: the windows over the aggregates, the table and the result are
    at row block t; the windows over the weights and the bias rows are at block 0. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_8.index t (0 : Fin 2) = t.val ∧ win1_8.index t (1 : Fin 2) = 0
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ t.val < 8 :=
  (by decide +kernel : ∀ t : Fin grid1.N, _)

/-- The aggregates' block at point t is rows 1264 t … of both halves. -/
theorem iblk0_apply (t : Fin cfg1.N) (h : Fin 2) (p : Fin 1264) (q : Fin 128) (P : Fin 10112) (hP : P.val = 1264 * t.val + p.val) :
    (iblk1 V c 0 t : Vec Ideal S2x1264x128 .f32) (ix3 h p q) = (V c main_v6 : S2x10112x128.Idx → Elt Ideal .f32) (ix3 h P q) := by
  obtain ⟨e0, e1, e2, -⟩ := idx_facts t
  unfold iblk1
  rw [View.read_apply]
  show V c main_v6 _ = V c main_v6 _
  congr 1
  funext a
  apply Fin.ext
  match a with
  | ⟨0, _⟩ => show win1_0.index t (0 : Fin 3) * 2 + 1 * h.val = h.val; rw [e0]; omega
  | ⟨1, _⟩ => show win1_0.index t (1 : Fin 3) * 1264 + 1 * p.val = P.val; rw [e1, hP]; omega
  | ⟨2, _⟩ => show win1_0.index t (2 : Fin 3) * 128 + 1 * q.val = q.val; rw [e2]; omega

/-- The table's block at point t is rows 1264 t … of the table. -/
theorem iblk1_apply (t : Fin cfg1.N) (p : Fin 1264) (q : Fin 128) (P : Fin 10112) (hP : P.val = 1264 * t.val + p.val) :
    (iblk1 V c 1 t : Vec Ideal S1264x128 .f32) (ix2 p q) = (V c main_v0 : S10112x128.Idx → Elt Ideal .f32) (ix2 P q) := by
  obtain ⟨-, -, -, e0, e1, -⟩ := idx_facts t
  unfold iblk1
  rw [View.read_apply]
  show V c main_v0 _ = V c main_v0 _
  congr 1
  funext a
  apply Fin.ext
  match a with
  | ⟨0, _⟩ => show win1_1.index t (0 : Fin 2) * 1264 + 1 * p.val = P.val; rw [e0, hP]; omega
  | ⟨1, _⟩ => show win1_1.index t (1 : Fin 2) * 128 + 1 * q.val = q.val; rw [e1]; omega

/-- A window whose one block is its whole array reads that array: the first weight matrix. -/
theorem iblk_w2 (t : Fin cfg1.N) : iblk1 V c 2 t = V c main_arg3 := by
  obtain ⟨-, -, -, -, -, -, -, ⟨e0, e1⟩, -⟩ := idx_facts t
  have hz' : (fun a => win1_2.index t a * main_arg3.ty.shape.size a) = fun _ => 0 := funext fun a => by
    match a with
    | ⟨0, _⟩ => show win1_2.index t (0 : Fin 2) * 256 = 0; rw [e0]
    | ⟨1, _⟩ => show win1_2.index t (1 : Fin 2) * 128 = 0; rw [e1]
  exact Memref.read_access_unit_zero (Elt Ideal) main_arg3 hz' (fun a => by rw [congrFun hz' a]; simp) (V c main_arg3)

/-- The first bias row. -/
theorem iblk_w3 (t : Fin cfg1.N) : iblk1 V c 3 t = V c main_v7 := by
  obtain ⟨-, -, -, -, -, -, -, -, ⟨e0, e1⟩, -⟩ := idx_facts t
  have hz' : (fun a => win1_3.index t a * main_v7.ty.shape.size a) = fun _ => 0 := funext fun a => by
    match a with
    | ⟨0, _⟩ => show win1_3.index t (0 : Fin 2) * 1 = 0; rw [e0]
    | ⟨1, _⟩ => show win1_3.index t (1 : Fin 2) * 128 = 0; rw [e1]
  exact Memref.read_access_unit_zero (Elt Ideal) main_v7 hz' (fun a => by rw [congrFun hz' a]; simp) (V c main_v7)

/-- The second weight matrix. -/
theorem iblk_w4 (t : Fin cfg1.N) : iblk1 V c 4 t = V c main_arg5 := by
  obtain ⟨-, -, -, -, -, -, -, -, -, ⟨e0, e1⟩, -⟩ := idx_facts t
  have hz' : (fun a => win1_4.index t a * main_arg5.ty.shape.size a) = fun _ => 0 := funext fun a => by
    match a with
    | ⟨0, _⟩ => show win1_4.index t (0 : Fin 2) * 128 = 0; rw [e0]
    | ⟨1, _⟩ => show win1_4.index t (1 : Fin 2) * 128 = 0; rw [e1]
  exact Memref.read_access_unit_zero (Elt Ideal) main_arg5 hz' (fun a => by rw [congrFun hz' a]; simp) (V c main_arg5)

/-- The second bias row. -/
theorem iblk_w5 (t : Fin cfg1.N) : iblk1 V c 5 t = V c main_v8 := by
  obtain ⟨-, -, -, -, -, -, -, -, -, -, ⟨e0, e1⟩, -⟩ := idx_facts t
  have hz' : (fun a => win1_5.index t a * main_v8.ty.shape.size a) = fun _ => 0 := funext fun a => by
    match a with
    | ⟨0, _⟩ => show win1_5.index t (0 : Fin 2) * 1 = 0; rw [e0]
    | ⟨1, _⟩ => show win1_5.index t (1 : Fin 2) * 128 = 0; rw [e1]
  exact Memref.read_access_unit_zero (Elt Ideal) main_v8 hz' (fun a => by rw [congrFun hz' a]; simp) (V c main_v8)

/-- The third weight matrix. -/
theorem iblk_w6 (t : Fin cfg1.N) : iblk1 V c 6 t = V c main_arg7 := by
  obtain ⟨-, -, -, -, -, -, -, -, -, -, -, ⟨e0, e1⟩, -⟩ := idx_facts t
  have hz' : (fun a => win1_6.index t a * main_arg7.ty.shape.size a) = fun _ => 0 := funext fun a => by
    match a with
    | ⟨0, _⟩ => show win1_6.index t (0 : Fin 2) * 128 = 0; rw [e0]
    | ⟨1, _⟩ => show win1_6.index t (1 : Fin 2) * 128 = 0; rw [e1]
  exact Memref.read_access_unit_zero (Elt Ideal) main_arg7 hz' (fun a => by rw [congrFun hz' a]; simp) (V c main_arg7)

/-- The third bias row. -/
theorem iblk_w7 (t : Fin cfg1.N) : iblk1 V c 7 t = V c main_v9 := by
  obtain ⟨-, -, -, -, -, -, -, -, -, -, -, -, ⟨e0, e1⟩, -⟩ := idx_facts t
  have hz' : (fun a => win1_7.index t a * main_v9.ty.shape.size a) = fun _ => 0 := funext fun a => by
    match a with
    | ⟨0, _⟩ => show win1_7.index t (0 : Fin 2) * 1 = 0; rw [e0]
    | ⟨1, _⟩ => show win1_7.index t (1 : Fin 2) * 128 = 0; rw [e1]
  exact Memref.read_access_unit_zero (Elt Ideal) main_v9 hz' (fun a => by rw [congrFun hz' a]; simp) (V c main_v9)

/-- The result's block at point t, read off a whole array, is rows 1264 t … of it. -/
theorem read_blk8 (G : Mat 10112 128) (t : Fin cfg1.N) (p : Fin 1264) (q : Fin 128) (P : Fin 10112) (hP : P.val = 1264 * t.val + p.val) :
    (((cfg1.win 8).blk t).view.read (Elt Ideal) G : Vec Ideal S1264x128 .f32) (ix2 p q) = G (ix2 P q) := by
  obtain ⟨-, -, -, -, -, e0, e1, -⟩ := idx_facts t
  rw [View.read_apply]
  show G _ = G _
  congr 1
  funext a
  apply Fin.ext
  match a with
  | ⟨0, _⟩ => show win1_8.index t (0 : Fin 2) * 1264 + 1 * p.val = P.val; rw [e0, hP]; omega
  | ⟨1, _⟩ => show win1_8.index t (1 : Fin 2) * 128 + 1 * q.val = q.val; rw [e1]; omega

/-! ## From blocks to the array -/

/-- What point t writes back is rows 1264 t … of the layers applied to the whole arrays: the layers are row-local,
    and each block the body reads is the band of rows (or the whole array) its window names. -/
theorem flushed_eq (t : Fin cfg1.N) :
    (dat1 (F := Ideal) V c).flushed 8 t = ((cfg1.win 8).blk t).view.read (Elt Ideal)
      (Cert.Gnn.mlpPad (V c main_v6) (V c main_v0) (V c main_arg3) (V c main_v7) (V c main_arg5) (V c main_v8)
        (V c main_arg7) (V c main_v9)) := by
  show (cfg1.win 8).cut (grid1.coords t) ((dat1 V c).after 8 t) = _
  rw [after1_8, out_eq, iblk_w2, iblk_w3, iblk_w4, iblk_w5, iblk_w6, iblk_w7]
  obtain ⟨-, -, -, -, -, -, -, -, -, -, -, -, -, ht⟩ := idx_facts t
  refine funext fun (j : S1264x128.Idx) => ?_
  obtain ⟨p, q, rfl⟩ : ∃ (p : Fin 1264) (q : Fin 128), j = ix2 p q := ⟨j 0, j 1, eq_ix2 j⟩
  have hP : 1264 * t.val + p.val < 10112 := by have := p.isLt; omega
  rw [read_blk8 _ t p q ⟨_, hP⟩ rfl]
  show Cert.Gnn.mlp (Cert.Gnn.cat (sumB (iblk1 V c 0 t)) (iblk1 V c 1 t)) (V c main_arg3) (V c main_v7) (V c main_arg5)
      (V c main_v8) (V c main_arg7) (V c main_v9) (ix2 p q) = _
  unfold Cert.Gnn.mlpPad
  refine Cert.Gnn.mlp_rows _ _ _ _ _ _ _ _ p ⟨_, hP⟩ (fun c' => ?_) q
  refine cat_rows _ _ _ _ p ⟨_, hP⟩ (fun k => ?_) (fun k => iblk1_apply V c t p k ⟨_, hP⟩ rfl) c'
  exact congrArg₂ (fun a b : EReal => a + b) (iblk0_apply V c t 0 p k ⟨_, hP⟩ rfl) (iblk0_apply V c t 1 p k ⟨_, hP⟩ rfl)

/-- Row r of the result is in the block of point r / 1264: the 8 blocks tile the 10112 rows. -/
theorem cover (i : S10112x128.Idx) :
    ∃ t : Fin cfg1.N, (cfg1.win 8).flush t = true ∧ i ∈ ((cfg1.win 8).blk t).view.set := by
  have hi0 : (i 0).val < 10112 := (i 0).isLt
  have hi1 : (i 1).val < 128 := (i 1).isLt
  have hN : cfg1.N = 8 := N_1
  let t : Fin cfg1.N := ⟨(i 0).val / 1264, by rw [hN]; omega⟩
  refine ⟨t, flush1_8 t, ?_⟩
  obtain ⟨-, -, -, -, -, e0, e1, -⟩ := idx_facts t
  show i ∈ ((View.whole main_v10).slice (win1_8.rect t)).set
  rw [View.set_slice_whole, Rect.mem_set_unit]
  intro a
  match a with
  | ⟨0, _⟩ =>
    show win1_8.index t (0 : Fin 2) * 1264 ≤ (i 0).val ∧ (i 0).val < win1_8.index t (0 : Fin 2) * 1264 + 1264
    rw [e0]
    show (i 0).val / 1264 * 1264 ≤ (i 0).val ∧ (i 0).val < (i 0).val / 1264 * 1264 + 1264
    omega
  | ⟨1, _⟩ =>
    show win1_8.index t (1 : Fin 2) * 128 ≤ (i 1).val ∧ (i 1).val < win1_8.index t (1 : Fin 2) * 128 + 128
    rw [e1]
    omega

end Blocks

/-- For any contents at the stage's entry, its result array after the stage is the dense layers applied to
    the two partial aggregates, the padded table, the weights and the bias rows as found at the entry. -/
theorem value (V : (c : Dev nD) → (b : Ref sig .tc) → Buf (Elt Ideal) ((c : Thread nD τ).loc b)) (c : Dev nD) :
    (dat1 (F := Ideal) V c).arrAt 8 cfg1.N
      = Cert.Gnn.mlpPad (V c main_v6) (V c main_v0) (V c main_arg3) (V c main_v7) (V c main_arg5) (V c main_v8)
          (V c main_arg7) (V c main_v9) :=
  (dat1 (F := Ideal) V c).arrAt_eq_of_cover 8 _ (fun t _ => flushed_eq V c t) (fun i => cover i)

end Cert.KernelIdeal.Region1

end
-- ==== Proof.Bridge.lean ====
/-
  The indicator form of the aggregate is the direct form, on edges whose words are node numbers.

  The first program clips every source and destination word into 0 … 10111, lays the 640000 edges out as two
  halves of 320000, and pads the feature table with 112 zero rows.  When every source word reads a number
  below 10000 and no destination word is negative:

  * the clip leaves a source word as it is, so the one table row whose number is that word is the source's
    own row, every other indicator is 0, and the message is that row (0 · x = 0 and 1 · x = x hold for every
    extended real, and a sum with one non-zero term is that term);
  * a destination word that is at least 10000 is clipped to a row number of at least 10000, which is no
    node's; a smaller one is left as it is; so for a node n the indicator of the clipped word at n is 1
    exactly when the word reads n;
  * edge p of the flat arrays is edge p mod 320000 of half p div 320000, so the two halves' sums together
    are the sum over all edges.

  Rows below 10000 of the padded table are the table's rows, and the dense layers are row-local, so the rows
  below 10000 of the padded result are the rows of the direct computation.
-/
import proofs.«419023_j39298950758677_3_alg».proof.Proof.Spec
import proofs.«419023_j39298950758677_3_alg».proof.Proof.LibWordArith
import Mathlib.Algebra.BigOperators.Fin
import Mathlib.Logic.Equiv.Fin.Basic

noncomputable section

open scoped BigOperators

namespace Cert.Gnn

open Idealize.ShloMosaic Idealize.ShloMosaic.ValueIdx DenseRows

/-- The feature table with 112 zero rows appended. -/
def padRows (nf : Mat 10000 128) : Mat 10112 128 :=
  fun i => if h : (i 0).val < 10000 then nf (ix2 ⟨(i 0).val, h⟩ (i 1)) else 0

/-- A word clipped into 0 … 10111 (signed). -/
def clipW (w : BitVec 32) : BitVec 32 := IntOp.minsi 10111#32 (IntOp.maxsi 0#32 w)

/-- The clipped words of a flat edge array, laid out as two halves: entry (h, q, 0) is edge 320000 h + q. -/
def halves (a : Words 640000) : IVec (⟨3, ![2, 320000, 1]⟩ : Shape) 32 :=
  fun y => clipW (a (ix1 ⟨(y 0).val * 320000 + (y 1).val, by
    have h0 : (y 0).val < 2 := (y 0).isLt
    have h1 : (y 1).val < 320000 := (y 1).isLt
    omega⟩))

namespace Bridge

/-! ## Words -/

/-- A word whose signed reading is not negative reads the same unsigned. -/
theorem toNat_of_nonneg {w : BitVec 32} (h0 : 0 ≤ w.toInt) : (w.toNat : Int) = w.toInt := by
  have h := BitVec.toInt_eq_toNat_cond w
  have hlt := w.isLt
  split at h <;> omega

/-- The word of a small number n is w exactly when w reads n (signed). -/
theorem ofNat_eq_iff_toInt {w : BitVec 32} {n : ℕ} (hn : n < 2 ^ 31) :
    BitVec.ofNat 32 n = w ↔ w.toInt = (n : Int) := by
  constructor
  · intro h
    rw [← h]
    exact Cert.Gcn.WordArith.toInt_ofNat_small n hn
  · intro h
    apply BitVec.eq_of_toInt_eq
    rw [Cert.Gcn.WordArith.toInt_ofNat_small n hn, h]

/-- The word of a number n below 2³² is w exactly when w reads n (unsigned). -/
theorem ofNat_eq_iff_toNat {w : BitVec 32} {n : ℕ} (hn : n < 2 ^ 32) :
    BitVec.ofNat 32 n = w ↔ n = w.toNat := by
  constructor
  · intro h
    rw [← h, BitVec.toNat_ofNat, Nat.mod_eq_of_lt hn]
  · intro h
    apply BitVec.eq_of_toNat_eq
    rw [BitVec.toNat_ofNat, Nat.mod_eq_of_lt hn, h]

/-- The clip of a word that is not negative: 10111 when the word is larger, else the word itself. -/
theorem clipW_eq {w : BitVec 32} (h0 : 0 ≤ w.toInt) :
    clipW w = if 10111 < w.toInt then 10111#32 else w := by
  have hz : (0#32 : BitVec 32).toInt = 0 := by decide
  have hc : (10111#32 : BitVec 32).toInt = 10111 := by decide
  have hs : w.slt 0#32 = false := by
    simp only [BitVec.slt, hz, decide_eq_false_iff_not]; omega
  have hmax : IntOp.maxsi 0#32 w = w := by
    unfold IntOp.maxsi
    rw [hs]
    rfl
  unfold clipW
  rw [hmax]
  unfold IntOp.minsi
  by_cases h : 10111 < w.toInt
  · have ht : (10111#32 : BitVec 32).slt w = true := by
      simp only [BitVec.slt, hc, decide_eq_true_eq]; exact h
    rw [ht, if_pos h]
    rfl
  · have ht : (10111#32 : BitVec 32).slt w = false := by
      simp only [BitVec.slt, hc, decide_eq_false_iff_not]; exact h
    rw [ht, if_neg h]
    rfl

/-- The clip leaves a word that reads a number of 0 … 10111 as it is. -/
theorem clipW_small {w : BitVec 32} (h0 : 0 ≤ w.toInt) (h1 : w.toInt < 10112) : clipW w = w := by
  rw [clipW_eq h0, if_neg (by omega)]

/-- For a node number n, the indicator of a clipped destination word at n is 1 exactly when the word reads n:
    a word above 10111 is clipped to 10111, which is no node's number, and does not read n either. -/
theorem oh_clipW {d : BitVec 32} (h0 : 0 ≤ d.toInt) {n : ℕ} (hn : n < 10000) :
    oh (clipW d) n = if d.toInt = (n : Int) then 1 else 0 := by
  unfold oh
  rw [clipW_eq h0]
  by_cases hbig : 10111 < d.toInt
  · rw [if_pos hbig]
    have h1 : ¬ BitVec.ofNat 32 n = 10111#32 := by
      intro h
      have := (ofNat_eq_iff_toNat (w := 10111#32) (n := n) (by omega)).mp h
      have h2 : (10111#32 : BitVec 32).toNat = 10111 := by decide
      omega
    rw [if_neg h1, if_neg (by omega)]
  · rw [if_neg hbig]
    by_cases h : d.toInt = (n : Int)
    · rw [if_pos h, if_pos ((ofNat_eq_iff_toInt (by omega)).mpr h)]
    · rw [if_neg h, if_neg (fun h' => h ((ofNat_eq_iff_toInt (by omega)).mp h'))]

/-! ## The padded table and one edge's message -/

/-- A row below 10000 of the padded table is the table's row. -/
theorem padRows_lt (nf : Mat 10000 128) (a : Fin 10112) (k : Fin 128) (h : a.val < 10000) :
    padRows nf (ix2 a k) = nf (ix2 ⟨a.val, h⟩ k) := by
  unfold padRows
  exact dif_pos h

/-- The message of a source word that reads a node number is that node's row: exactly one indicator is 1. -/
theorem msg_padRows (nf : Mat 10000 128) (s : BitVec 32) (k : Fin 128) (hs : s.toNat < 10000) :
    msg (padRows nf) s k = nf (ix2 (rowOf s) k) := by
  have hrow : rowOf s = ⟨s.toNat, hs⟩ := Fin.ext (Nat.mod_eq_of_lt hs)
  unfold msg
  rw [Finset.sum_eq_single (⟨s.toNat, by omega⟩ : Fin 10112)]
  · have h1 : oh s s.toNat = 1 := by
      unfold oh
      exact if_pos ((ofNat_eq_iff_toNat s.isLt).mpr rfl)
    rw [h1, one_mul, padRows_lt nf _ k hs, hrow]
  · intro b _ hb
    have h0 : oh s b.val = 0 := by
      unfold oh
      refine if_neg (fun h => hb (Fin.ext ?_))
      have hb' : b.val < 2 ^ 32 := by have := b.isLt; omega
      exact (ofNat_eq_iff_toNat hb').mp h
    rw [h0, zero_mul]
  · intro h
    exact absurd (Finset.mem_univ _) h

/-! ## One edge's term -/

/-- The clipped words of edge 320000 h + q sit at (h, q, 0). -/
theorem halves_apply (a : Words 640000) (h : Fin 2) (q : Fin 320000) (hp : h.val * 320000 + q.val < 640000) :
    halves a (ix3 h q 0) = clipW (a (ix1 ⟨h.val * 320000 + q.val, hp⟩)) := rfl

/-- One edge's term in the indicator form is its term in the direct form. -/
theorem edge_term (nf : Mat 10000 128) (src dst : Words 640000)
    (hsrc : ∀ p : Fin 640000, 0 ≤ (src (ix1 p)).toInt ∧ (src (ix1 p)).toInt < 10000)
    (hdst : ∀ p : Fin 640000, 0 ≤ (dst (ix1 p)).toInt) (n : Fin 10000) (k : Fin 128) (p : Fin 640000) :
    oh (clipW (dst (ix1 p))) n.val * msg (padRows nf) (clipW (src (ix1 p))) k
      = if (dst (ix1 p)).toInt = ((n.val : ℕ) : Int) then nf (ix2 (rowOf (src (ix1 p))) k) else 0 := by
  obtain ⟨hs0, hs1⟩ := hsrc p
  have hnat : (src (ix1 p)).toNat < 10000 := by
    have := toNat_of_nonneg hs0
    omega
  rw [clipW_small hs0 (by omega), msg_padRows nf _ k hnat, oh_clipW (hdst p) n.isLt]
  by_cases h : (dst (ix1 p)).toInt = ((n.val : ℕ) : Int)
  · rw [if_pos h, if_pos h, one_mul]
  · rw [if_neg h, if_neg h, zero_mul]

/-- One edge's term of the direct form, as a function of the edge's number (0 past the last edge). -/
def edgeT (nf : Mat 10000 128) (src dst : Words 640000) (n : Fin 10000) (k : Fin 128) (p : ℕ) : EReal :=
  if h : p < 640000 then
    (if (dst (ix1 ⟨p, h⟩)).toInt = ((n.val : ℕ) : Int) then nf (ix2 (rowOf (src (ix1 ⟨p, h⟩))) k) else 0)
  else 0

/-! ## Regrouping -/

/-- A sum over 2a numbers is the sum over the first a plus the sum over the last a. -/
theorem sum_two_halves {M : Type*} [AddCommMonoid M] (f : ℕ → M) (m a : ℕ) (h : m = a + a) :
    ∑ p : Fin m, f p.val = ∑ q : Fin a, f q.val + ∑ q : Fin a, f (a + q.val) := by
  subst h
  rw [Fin.sum_univ_add]
  rfl

end Bridge

open Bridge

/-- On edges whose source words are node numbers and whose destination words are not negative, row n < 10000 of
    the sum of the two partial aggregates is node n's aggregate. -/
theorem agg_bridge (nf : Mat 10000 128) (src dst : Words 640000)
    (hsrc : ∀ p : Fin 640000, 0 ≤ (src (ix1 p)).toInt ∧ (src (ix1 p)).toInt < 10000)
    (hdst : ∀ p : Fin 640000, 0 ≤ (dst (ix1 p)).toInt) (n : Fin 10000) (k : Fin 128) :
    sum2 (aggPad (halves src) (halves dst) (padRows nf)) (ix2 ⟨n.val, by have := n.isLt; omega⟩ k)
      = aggRef nf src dst (ix2 n k) := by
  have hn : n.val < 10112 := by have := n.isLt; omega
  -- the direct form is the sum of the edges' terms
  have href : aggRef nf src dst (ix2 n k) = ∑ p : Fin 640000, edgeT nf src dst n k p.val := by
    unfold aggRef
    refine Finset.sum_congr rfl (fun p _ => ?_)
    unfold edgeT
    rw [dif_pos p.isLt]
  -- each half of the indicator form is the sum of its edges' terms
  have hhalf : ∀ h : Fin 2, aggPad (halves src) (halves dst) (padRows nf) (ix3 h ⟨n.val, hn⟩ k)
      = ∑ q : Fin 320000, edgeT nf src dst n k (h.val * 320000 + q.val) := by
    intro h
    unfold aggPad
    refine Finset.sum_congr rfl (fun q _ => ?_)
    have hp : h.val * 320000 + q.val < 640000 := by
      have h0 := h.isLt
      have h1 := q.isLt
      omega
    unfold edgeT
    rw [dif_pos hp]
    exact edge_term nf src dst hsrc hdst n k ⟨h.val * 320000 + q.val, hp⟩
  show aggPad (halves src) (halves dst) (padRows nf) (ix3 0 ⟨n.val, hn⟩ k)
      + aggPad (halves src) (halves dst) (padRows nf) (ix3 1 ⟨n.val, hn⟩ k) = _
  rw [hhalf 0, hhalf 1, href, sum_two_halves (edgeT nf src dst n k) 640000 320000 rfl]
  have e0 : ∑ q : Fin 320000, edgeT nf src dst n k ((0 : Fin 2).val * 320000 + q.val)
      = ∑ q : Fin 320000, edgeT nf src dst n k q.val :=
    Finset.sum_congr rfl (fun q _ => congrArg (edgeT nf src dst n k) (by
      show 0 * 320000 + q.val = q.val
      omega))
  have e1 : ∑ q : Fin 320000, edgeT nf src dst n k ((1 : Fin 2).val * 320000 + q.val)
      = ∑ q : Fin 320000, edgeT nf src dst n k (320000 + q.val) :=
    Finset.sum_congr rfl (fun q _ => congrArg (edgeT nf src dst n k) (by
      show 1 * 320000 + q.val = 320000 + q.val
      omega))
  rw [e0, e1]

/-- Under the same hypotheses, rows below 10000 of the layers on the padded table are the whole computation. -/
theorem G_bridge (nf : Mat 10000 128) (src dst : Words 640000) (W1 : Mat 256 128) (b1 : Row 128) (W2 : Mat 128 128)
    (b2 : Row 128) (W3 : Mat 128 128) (b3 : Row 128)
    (hsrc : ∀ p : Fin 640000, 0 ≤ (src (ix1 p)).toInt ∧ (src (ix1 p)).toInt < 10000)
    (hdst : ∀ p : Fin 640000, 0 ≤ (dst (ix1 p)).toInt) (n : Fin 10000) (k : Fin 128) :
    mlpPad (aggPad (halves src) (halves dst) (padRows nf)) (padRows nf) W1 (asRow b1) W2 (asRow b2) W3 (asRow b3)
        (ix2 ⟨n.val, by have := n.isLt; omega⟩ k)
      = G nf src dst W1 b1 W2 b2 W3 b3 (ix2 n k) := by
  have hn : n.val < 10112 := by have := n.isLt; omega
  unfold G mlpPad
  refine mlp_rows _ _ _ _ _ _ _ _ ⟨n.val, hn⟩ n (fun c => ?_) k
  by_cases hc : c.val < 128
  · have hl : cat (sum2 (aggPad (halves src) (halves dst) (padRows nf))) (padRows nf) (ix2 ⟨n.val, hn⟩ c)
        = sum2 (aggPad (halves src) (halves dst) (padRows nf)) (ix2 ⟨n.val, hn⟩ ⟨c.val, hc⟩) := by
      unfold cat
      exact dif_pos hc
    have hr : cat (aggRef nf src dst) nf (ix2 n c) = aggRef nf src dst (ix2 n ⟨c.val, hc⟩) := by
      unfold cat
      exact dif_pos hc
    rw [hl, hr]
    exact agg_bridge nf src dst hsrc hdst n ⟨c.val, hc⟩
  · have hc' : c.val - 128 < 128 := by have := c.isLt; omega
    have hl : cat (sum2 (aggPad (halves src) (halves dst) (padRows nf))) (padRows nf) (ix2 ⟨n.val, hn⟩ c)
        = padRows nf (ix2 ⟨n.val, hn⟩ ⟨c.val - 128, hc'⟩) := by
      unfold cat
      exact dif_neg hc
    have hr : cat (aggRef nf src dst) nf (ix2 n c) = nf (ix2 n ⟨c.val - 128, hc'⟩) := by
      unfold cat
      exact dif_neg hc
    rw [hl, hr]
    exact padRows_lt nf ⟨n.val, hn⟩ _ n.isLt

end Cert.Gnn

end
-- ==== Proof.Hosts.lean ====
/-
  What the host operations leave at the two stages' entries and at the exit.

  Before the first stage the host pads the feature table with 112 zero rows (and changes its format, which is
  the identity on extended reals), clips the source and the destination words into 0 … 10111 and lays each
  array out as two halves of 320000.  Between the stages it casts the three bias vectors to one-row matrices;
  the first stage's result and the padded table are as they were left.  After the second stage it keeps the
  first 10000 rows of the result.
-/
import proofs.«419023_j39298950758677_3_alg».proof.Proof.Gen.KernelIdeal.Frame
import proofs.«419023_j39298950758677_3_alg».proof.Proof.Spec
import proofs.«419023_j39298950758677_3_alg».proof.Proof.Bridge
import proofs.«419023_j39298950758677_3_alg».proof.Proof.LibDenseForms
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Hosts

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The host operations read at an index, over variables -/

/-- The two clips and the layout in two halves: entry (h, q, 0) is the clipped word of edge 320000 h + q. -/
theorem clip_reshape_eq (a : IVec S640000 32) :
    shapeCast S2x320000x1
        (minsi (broadcastInDim S640000 ![] bcast_S_S640000 (id (constantI S_ 32 10111#32)))
          (maxsi (broadcastInDim S640000 ![] bcast_S_S640000 (id (constantI S_ 32 0#32))) a))
        shapeCasts_S640000_S2x320000x1 = Cert.Gnn.halves a := by
  funext y
  obtain ⟨h, q, z, rfl⟩ : ∃ (h : Fin 2) (q : Fin 320000) (z : Fin 1), y = ix3 h q z := ⟨y 0, y 1, y 2, eq_ix3 y⟩
  have hh := h.isLt
  have hq := q.isLt
  have hz := z.isLt
  refine (shapeCast_apply _ _ (ix3 h q z) (ix1 ⟨h.val * 320000 + q.val, by omega⟩) ?_).trans ?_
  · rw [Shape.rowMajor_val_one, Shape.rowMajor_val_three]
    show h.val * 320000 + q.val = (h.val * 320000 + q.val) * 1 + z.val
    omega
  · rfl

/-- The table padded with 112 rows of the converted zero word: rows below 10000 are the table's, the others 0. -/
theorem pad_eq (x : FVec Ideal S10000x128 .f32) :
    pad S10112x128 ![0, 0] ![112, 0] ![0, 0] x (sitofp (F := Ideal) .f32 (constantI S_ 32 0#32))
        pads_S10000x128_S10112x128_01120_000 h_S_ = Cert.Gnn.padRows x := by
  funext i
  obtain ⟨p, q, rfl⟩ : ∃ (p : Fin 10112) (q : Fin 128), i = ix2 p q := ⟨i 0, i 1, eq_ix2 i⟩
  have hq := q.isLt
  by_cases h : p.val < 10000
  · refine (pad_apply_of_inside _ _ _ x _ _ _ (ix2 p q) (ix2 ⟨p.val, h⟩ q) fun a => ?_).trans ?_
    · match a with
      | ⟨0, _⟩ => show p.val = 0 + p.val * (0 + 1); omega
      | ⟨1, _⟩ => show q.val = 0 + q.val * (0 + 1); omega
    · show _ = if h : p.val < 10000 then x (ix2 ⟨p.val, h⟩ q) else 0
      rw [dif_pos h]
  · refine (pad_apply_of_not_inside _ _ _ x _ _ _ (ix2 p q) (0 : Fin 2) ?_).trans ?_
    · show ¬(0 ≤ p.val ∧ (p.val - 0) % (0 + 1) = 0 ∧ (p.val - 0) / (0 + 1) < 10000)
      omega
    · show (Scalar.sitofp .f32 (0#32 : BitVec 32) : Ideal .f32) = if h : p.val < 10000 then x (ix2 ⟨p.val, h⟩ q) else 0
      rw [dif_neg h]
      exact sitofp_zero

/-! ## At the first stage's entry -/

theorem V7_v4 (c : Dev nD) :
    (V7 m ρ c main_v4 : IVec S2x320000x1 32) = Cert.Gnn.halves (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v4) = _
  after_results
  exact clip_reshape_eq _

theorem V7_v5 (c : Dev nD) :
    (V7 m ρ c main_v5 : IVec S2x320000x1 32) = Cert.Gnn.halves (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v5) = _
  after_results
  exact clip_reshape_eq _

theorem W7_v0 (c : Dev nD) :
    (W7 m ρ c (Proc.devRef .tc main_v0) : FVec Ideal S10112x128 .f32) = Cert.Gnn.padRows (m ((c : Thread nD τ).loc main_arg0)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v0) = _
  after_results
  exact pad_eq _

theorem V7_v1 (c : Dev nD) :
    (V7 m ρ c main_v1 : FVec Ideal S10112x128 .bf16) = Cert.Gnn.padRows (m ((c : Thread nD τ).loc main_arg0)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v1) = _
  after_results
  exact pad_eq _

/-! ## At the second stage's entry -/

theorem W8_arg3 (c : Dev nD) : W8 m ρ c (Proc.devRef .tc main_arg3) = m ((c : Thread nD τ).loc main_arg3) := by
  rw [W8_of_ne m ρ c main_arg3 (by decide)]
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg3) = _
  after_results

theorem W8_arg4 (c : Dev nD) : W8 m ρ c (Proc.devRef .tc main_arg4) = m ((c : Thread nD τ).loc main_arg4) := by
  rw [W8_of_ne m ρ c main_arg4 (by decide)]
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg4) = _
  after_results

theorem W8_arg5 (c : Dev nD) : W8 m ρ c (Proc.devRef .tc main_arg5) = m ((c : Thread nD τ).loc main_arg5) := by
  rw [W8_of_ne m ρ c main_arg5 (by decide)]
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg5) = _
  after_results

theorem W8_arg6 (c : Dev nD) : W8 m ρ c (Proc.devRef .tc main_arg6) = m ((c : Thread nD τ).loc main_arg6) := by
  rw [W8_of_ne m ρ c main_arg6 (by decide)]
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg6) = _
  after_results

theorem W8_arg7 (c : Dev nD) : W8 m ρ c (Proc.devRef .tc main_arg7) = m ((c : Thread nD τ).loc main_arg7) := by
  rw [W8_of_ne m ρ c main_arg7 (by decide)]
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg7) = _
  after_results

theorem W8_arg8 (c : Dev nD) : W8 m ρ c (Proc.devRef .tc main_arg8) = m ((c : Thread nD τ).loc main_arg8) := by
  rw [W8_of_ne m ρ c main_arg8 (by decide)]
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg8) = _
  after_results

theorem V9_v6 (c : Dev nD) :
    (V9 m ρ c main_v6 : FVec Ideal S2x10112x128 .f32) = (dat0 (F := Ideal) (V7 m ρ) c).arrAt 3 cfg0.N := by
  show StableHlo.after hostOps1 (W8 m ρ c) (Proc.devRef .tc main_v6) = _
  after_results
  exact W8_arr m ρ c 3

theorem V9_v0 (c : Dev nD) :
    (V9 m ρ c main_v0 : FVec Ideal S10112x128 .f32) = Cert.Gnn.padRows (m ((c : Thread nD τ).loc main_arg0)) := by
  show StableHlo.after hostOps1 (W8 m ρ c) (Proc.devRef .tc main_v0) = _
  after_results
  rw [W8_of_ne m ρ c main_v0 (by decide)]
  exact W7_v0 m ρ c

theorem V9_arg3 (c : Dev nD) : V9 m ρ c main_arg3 = m ((c : Thread nD τ).loc main_arg3) := by
  show StableHlo.after hostOps1 (W8 m ρ c) (Proc.devRef .tc main_arg3) = _
  after_results
  exact W8_arg3 m ρ c

theorem V9_arg5 (c : Dev nD) : V9 m ρ c main_arg5 = m ((c : Thread nD τ).loc main_arg5) := by
  show StableHlo.after hostOps1 (W8 m ρ c) (Proc.devRef .tc main_arg5) = _
  after_results
  exact W8_arg5 m ρ c

theorem V9_arg7 (c : Dev nD) : V9 m ρ c main_arg7 = m ((c : Thread nD τ).loc main_arg7) := by
  show StableHlo.after hostOps1 (W8 m ρ c) (Proc.devRef .tc main_arg7) = _
  after_results
  exact W8_arg7 m ρ c

theorem V9_v7 (c : Dev nD) :
    (V9 m ρ c main_v7 : FVec Ideal S1x128 .f32) = DenseRows.asRow (m ((c : Thread nD τ).loc main_arg4)) := by
  show StableHlo.after hostOps1 (W8 m ρ c) (Proc.devRef .tc main_v7) = _
  after_results
  exact (congrArg (fun x : FVec Ideal S128 .f32 => shapeCast S1x128 x shapeCasts_S128_S1x128) (W8_arg4 m ρ c)).trans
    (DenseRows.shapeCast_asRow _ _)

theorem V9_v8 (c : Dev nD) :
    (V9 m ρ c main_v8 : FVec Ideal S1x128 .f32) = DenseRows.asRow (m ((c : Thread nD τ).loc main_arg6)) := by
  show StableHlo.after hostOps1 (W8 m ρ c) (Proc.devRef .tc main_v8) = _
  after_results
  exact (congrArg (fun x : FVec Ideal S128 .f32 => shapeCast S1x128 x shapeCasts_S128_S1x128) (W8_arg6 m ρ c)).trans
    (DenseRows.shapeCast_asRow _ _)

theorem V9_v9 (c : Dev nD) :
    (V9 m ρ c main_v9 : FVec Ideal S1x128 .f32) = DenseRows.asRow (m ((c : Thread nD τ).loc main_arg8)) := by
  show StableHlo.after hostOps1 (W8 m ρ c) (Proc.devRef .tc main_v9) = _
  after_results
  exact (congrArg (fun x : FVec Ideal S128 .f32 => shapeCast S1x128 x shapeCasts_S128_S1x128) (W8_arg8 m ρ c)).trans
    (DenseRows.shapeCast_asRow _ _)

/-! ## At the exit -/

/-- The program's result is the first 10000 rows of the second stage's result array. -/
theorem W11_v11 (c : Dev nD) (n : Fin 10000) (k : Fin 128) :
    (W11 m ρ c (Proc.devRef .tc main_v11) : FVec Ideal S10000x128 .f32) (ix2 n k)
      = (dat1 (F := Ideal) (V9 m ρ) c).arrAt 8 cfg1.N (ix2 ⟨n.val, by have := n.isLt; omega⟩ k) := by
  have e : (W10 m ρ c (Proc.devRef .tc main_v10) : FVec Ideal S10112x128 .f32) = (dat1 (F := Ideal) (V9 m ρ) c).arrAt 8 cfg1.N :=
    W10_arr m ρ c 8
  rw [← e]
  show StableHlo.after hostOps2 (W10 m ρ c) (Proc.devRef .tc main_v11) (ix2 n k) = _
  after_results
  refine extractStridedSlice_apply _ _ _ (ix2 n k) (ix2 ⟨n.val, by have := n.isLt; omega⟩ k) fun a => ?_
  match a with
  | ⟨0, _⟩ => show n.val = 0 + n.val; omega
  | ⟨1, _⟩ => show k.val = 0 + k.val; omega

end Cert.KernelIdeal.Hosts

end
-- ==== Proof.KernelValue.lean ====
/-
  The first program's result is the whole computation, on edges whose words are node numbers.

  The run ends with the result buffer at what the last host stretch leaves there: the first 10000 rows of the
  second stage's result array.  That array is the dense layers applied to the first stage's two partial
  aggregates and the padded table; the partial aggregates are the indicator sums over the clipped words laid
  out in two halves; and on edges whose source words read node numbers and whose destination words are not
  negative the rows below 10000 of all this are the direct computation.
-/
import proofs.«419023_j39298950758677_3_alg».proof.Defs
import proofs.«419023_j39298950758677_3_alg».proof.Proof.Launch
import proofs.«419023_j39298950758677_3_alg».proof.Proof.Region0
import proofs.«419023_j39298950758677_3_alg».proof.Proof.Region1
import proofs.«419023_j39298950758677_3_alg».proof.Proof.Hosts
import proofs.«419023_j39298950758677_3_alg».proof.Proof.Bridge

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- What the run leaves in the result buffer is the whole computation of the arguments. -/
theorem result_eq (c : Dev nD)
    (hsrc : ∀ p : Fin 640000, 0 ≤ ((m ((c.tc : Thread nD τ).loc main_arg1) : IVec S640000 32) (ix1 p)).toInt
      ∧ ((m ((c.tc : Thread nD τ).loc main_arg1) : IVec S640000 32) (ix1 p)).toInt < 10000)
    (hdst : ∀ p : Fin 640000, 0 ≤ ((m ((c.tc : Thread nD τ).loc main_arg2) : IVec S640000 32) (ix1 p)).toInt) :
    (W11 m ρ c (Proc.devRef .tc main_v11) : FVec Ideal S10000x128 .f32)
      = Cert.Gnn.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  funext i
  obtain ⟨n, k, rfl⟩ : ∃ (n : Fin 10000) (k : Fin 128), i = ix2 n k := ⟨i 0, i 1, eq_ix2 i⟩
  rw [Hosts.W11_v11 m ρ c n k, Region1.value (V9 m ρ) c, Hosts.V9_v6 m ρ c, Region0.value (V7 m ρ) c,
    Hosts.V7_v4 m ρ c, Hosts.V7_v5 m ρ c, Hosts.V7_v1 m ρ c, Hosts.V9_v0 m ρ c, Hosts.V9_arg3 m ρ c,
    Hosts.V9_arg5 m ρ c, Hosts.V9_arg7 m ρ c, Hosts.V9_v7 m ρ c, Hosts.V9_v8 m ρ c, Hosts.V9_v9 m ρ c]
  exact Cert.Gnn.G_bridge _ _ _ _ _ _ _ _ _ hsrc hdst n k

/-- From a memory whose source words read node numbers and whose destination words are not negative, the first
    program runs and ends with its result at the whole computation of its arguments, the arguments unchanged. -/
theorem run_G
    (hsrc : ∀ (c : Dev nD) (p : Fin 640000), 0 ≤ ((m ((c.tc : Thread nD τ).loc main_arg1) : IVec S640000 32) (ix1 p)).toInt
      ∧ ((m ((c.tc : Thread nD τ).loc main_arg1) : IVec S640000 32) (ix1 p)).toInt < 10000)
    (hdst : ∀ (c : Dev nD) (p : Fin 640000), 0 ≤ ((m ((c.tc : Thread nD τ).loc main_arg2) : IVec S640000 32) (ix1 p)).toInt) :
    θ_run (defs (F := Ideal)) (onTc (τ := τ) (main (F := Ideal))) ⟨m, fun _ => 0, ρ⟩ fun r => ∀ c : Dev nD,
      r.2.mem ((c.tc : Thread nD τ).loc main_v11)
        = Cert.Gnn.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq m ρ c (hsrc c) (hdst c)), (h c).2⟩)
    (Cert.KernelIdeal.Named.run_named (F := Ideal) m ρ)

end Cert.KernelIdeal.KValue

end
-- ==== Proof.lean ====
/-
  Two programs compute one layer of a graph network: every node sums the feature rows of the sources of the
  edges that end in it, and the sum beside the node's own row goes through three dense layers.  The first
  gathers and sums by products with indicator matrices over a padded table, in two halves and many tiles; the
  second by a gather and an accumulating scatter.  On edges whose source words read node numbers and whose
  destination words are not negative — which the precondition says — both end with their result at the same
  function of the arguments (Spec.lean's G), entry by entry over the extended reals: products with an
  indicator keep exactly the indicated terms, sums may be regrouped, the padding rows are never read by a
  node, and the dense layers are row-local.

  The frames of the two forms of the first program are the generated ones; the second program's frame is its
  generated run with the result dropped; the first program is its own idealization (no rewrite was made).
-/
import proofs.«419023_j39298950758677_3_alg».proof.Defs
import proofs.«419023_j39298950758677_3_alg».proof.Proof.Gen.Kernel
import proofs.«419023_j39298950758677_3_alg».proof.Proof.Gen.Kernel.Frame
import proofs.«419023_j39298950758677_3_alg».proof.Proof.Gen.KernelIdeal
import proofs.«419023_j39298950758677_3_alg».proof.Proof.Gen.KernelIdeal.Frame
import proofs.«419023_j39298950758677_3_alg».proof.Proof.Gen.ReferenceIdeal
import proofs.«419023_j39298950758677_3_alg».proof.Proof.Gen.ReferenceIdeal.Run
import proofs.«419023_j39298950758677_3_alg».proof.Proof.Gen.Pre_finite_inputs
import proofs.«419023_j39298950758677_3_alg».proof.Proof.PreRanges
import proofs.«419023_j39298950758677_3_alg».proof.Proof.RefValue
import proofs.«419023_j39298950758677_3_alg».proof.Proof.KernelValue

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the arguments and satisfy the precondition, end with their
    results at the whole computation of the arguments. -/
theorem algebraic : Cert.algebraic_KernelIdeal_ReferenceIdeal := by
  intro m ρ m' ρ' hpre hagree
  have hsrc : ∀ (c : Dev Cert.KernelIdeal.nD) (p : Fin 640000),
      0 ≤ ((m ((c.tc : Thread Cert.KernelIdeal.nD Cert.KernelIdeal.τ).loc Cert.KernelIdeal.main_arg1) : IVec Cert.KernelIdeal.S640000 32) (ix1 p)).toInt
        ∧ ((m ((c.tc : Thread Cert.KernelIdeal.nD Cert.KernelIdeal.τ).loc Cert.KernelIdeal.main_arg1) : IVec Cert.KernelIdeal.S640000 32) (ix1 p)).toInt < 10000 :=
    fun c p => Cert.Gnn.PreRanges.src_range _ _ _ _ _ _ _ _ _ (hpre c) p
  have hdst : ∀ (c : Dev Cert.KernelIdeal.nD) (p : Fin 640000),
      0 ≤ ((m ((c.tc : Thread Cert.KernelIdeal.nD Cert.KernelIdeal.τ).loc Cert.KernelIdeal.main_arg2) : IVec Cert.KernelIdeal.S640000 32) (ix1 p)).toInt :=
    fun c p => Cert.Gnn.PreRanges.dst_nonneg _ _ _ _ _ _ _ _ _ (hpre c) p
  have hsrc' : ∀ (c : Dev Cert.ReferenceIdeal.nD) (p : Fin 640000),
      0 ≤ ((m' ((c.tc : Thread Cert.ReferenceIdeal.nD Cert.ReferenceIdeal.τ).loc Cert.ReferenceIdeal.main_arg1) : IVec Cert.ReferenceIdeal.S640000 32) (ix1 p)).toInt
        ∧ ((m' ((c.tc : Thread Cert.ReferenceIdeal.nD Cert.ReferenceIdeal.τ).loc Cert.ReferenceIdeal.main_arg1) : IVec Cert.ReferenceIdeal.S640000 32) (ix1 p)).toInt < 10000 :=
    fun c p => by rw [(hagree c).2.1]; exact hsrc c p
  refine ⟨fun c => Cert.Gnn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run_G m ρ hsrc hdst, ?_⟩
  refine (θ_run Cert.ReferenceIdeal.defs _ _).mono (fun _ h c => ⟨(h c).1.trans ?_, (h c).2⟩)
    (Cert.ReferenceIdeal.RefValue.run_G m' ρ' hsrc')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
